-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x1 : Shape := ⟨2, ![4000000, 1]⟩
abbrev S1x10 : Shape := ⟨2, ![1, 10]⟩
abbrev S10 : Shape := ⟨1, ![10]⟩
abbrev S10x10 : Shape := ⟨2, ![10, 10]⟩
abbrev S1 : Shape := ⟨1, ![1]⟩
abbrev S10x1 : Shape := ⟨2, ![10, 1]⟩
abbrev S_ : Shape := ⟨0, ![]⟩

class Facts : Prop where
  bcast_S_S4000000x1 : S_.BroadcastsInDim S4000000x1 (![] : Fin 0 → Fin S4000000x1.rank)
  reducesTo_S4000000x1_S_d0_1 : S4000000x1.ReducesTo [0, 1] S_
  h_S_ : 0 < S_.numel
  bcast_S_S1x10 : S_.BroadcastsInDim S1x10 (![] : Fin 0 → Fin S1x10.rank)
  reducesTo_S1x10_S_d0_1 : S1x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S1 : S_.BroadcastsInDim S1 (![] : Fin 0 → Fin S1.rank)
  reducesTo_S1_S_d0 : S1.ReducesTo [0] S_
  bcast_S_S10x1 : S_.BroadcastsInDim S10x1 (![] : Fin 0 → Fin S10x1.rank)
  reducesTo_S10x1_S_d0_1 : S10x1.ReducesTo [0, 1] S_

variable [Facts]

def fn_part5 {F : FTy → Type} [FloatOps F] (main_arg18 : FVec F S10x1 .f32) (main_arg19 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S10x1 .f32 := Host.absf main_arg18
  let main_cst_34 : FVec F S_ .f32 := constant S_ .f32 0x7F800000#32
  let main_v90 : FVec F S10x1 .f32 := broadcastInDim S10x1 ![] bcast_S_S10x1 main_cst_34
  let main_v91 : IVec S10x1 1 := cmpf .olt main_v89 main_v90
  let main_c_35 : IVec S_ 1 := constantI S_ 1 1#1
  let main_v92 : IVec S_ 1 := (fun x v => Host.reduce IntOp.andi x v reducesTo_S10x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S10 .f32) (main_arg15 : FVec F S10x10 .f32) (main_arg16 : FVec F S10 .f32) (main_arg17 : FVec F S1 .f32) (main_arg18 : FVec F S10x1 .f32) (main_arg19 : FVec F S1 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S10x10 .f32 := Host.absf main_arg15
  let main_cst_28 : FVec F S_ .f32 := constant S_ .f32 0x7F800000#32
  let main_v75 : FVec F S10x10 .f32 := broadcastInDim S10x10 ![] bcast_S_S10x10 main_cst_28
  let main_v76 : IVec S10x10 1 := cmpf .olt main_v74 main_v75
  let main_c_29 : IVec S_ 1 := constantI S_ 1 1#1
  let main_v77 : IVec S_ 1 := (fun x v => Host.reduce IntOp.andi x v reducesTo_S10x10_S_d0_1 h_S_) main_v76 main_c_29
  let main_v78 : IVec S_ 1 := andi main_v73 main_v77
  let main_v79 : FVec F S10 .f32 := Host.absf main_arg16
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S1 .f32) (main_arg18 : FVec F S10x1 .f32) (main_arg19 : FVec F S1 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S10x10 .f32 := Host.absf main_arg11
  let main_cst_20 : FVec F S_ .f32 := constant S_ .f32 0x7F800000#32
  let main_v55 : FVec F S10x10 .f32 := broadcastInDim S10x10 ![] bcast_S_S10x10 main_cst_20
  let main_v56 : IVec S10x10 1 := cmpf .olt main_v54 main_v55
  let main_c_21 : IVec S_ 1 := constantI S_ 1 1#1
  let main_v57 : IVec S_ 1 := (fun x v => Host.reduce IntOp.andi x v reducesTo_S10x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S10x10 .f32 := Host.absf main_arg13
  let main_cst_24 : FVec F S_ .f32 := constant S_ .f32 0x7F800000#32
  let main_v65 : FVec F S10x10 .f32 := broadcastInDim S10x10 ![] bcast_S_S10x10 main_cst_24
  let main_v66 : IVec S10x10 1 := cmpf .olt main_v64 main_v65
  let main_c_25 : IVec S_ 1 := constantI S_ 1 1#1
  let main_v67 : IVec S_ 1 := (fun x v => Host.reduce IntOp.andi x v reducesTo_S10x10_S_d0_1 h_S_) main_v66 main_c_25
  fn_part4 (F := F) main_arg14 main_arg15 main_arg16 main_arg17 main_arg18 main_arg19 main_v63 main_v67

def fn_part2 {F : FTy → Type} [FloatOps F] (main_arg7 : FVec F S10x10 .f32) (main_arg8 : FVec F S10 .f32) (main_arg9 : FVec F S10x10 .f32) (main_arg10 : FVec F S10 .f32) (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S1 .f32) (main_arg18 : FVec F S10x1 .f32) (main_arg19 : FVec F S1 .f32) (main_v33 : IVec S_ 1) : IVec S_ 1 :=
  let main_v34 : FVec F S10x10 .f32 := Host.absf main_arg7
  let main_cst_12 : FVec F S_ .f32 := constant S_ .f32 0x7F800000#32
  let main_v35 : FVec F S10x10 .f32 := broadcastInDim S10x10 ![] bcast_S_S10x10 main_cst_12
  let main_v36 : IVec S10x10 1 := cmpf .olt main_v34 main_v35
  let main_c_13 : IVec S_ 1 := constantI S_ 1 1#1
  let main_v37 : IVec S_ 1 := (fun x v => Host.reduce IntOp.andi x v reducesTo_S10x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S10x10 .f32 := Host.absf main_arg9
  let main_cst_16 : FVec F S_ .f32 := constant S_ .f32 0x7F800000#32
  let main_v45 : FVec F S10x10 .f32 := broadcastInDim S10x10 ![] bcast_S_S10x10 main_cst_16
  let main_v46 : IVec S10x10 1 := cmpf .olt main_v44 main_v45
  let main_c_17 : IVec S_ 1 := constantI S_ 1 1#1
  let main_v47 : IVec S_ 1 := (fun x v => Host.reduce IntOp.andi x v reducesTo_S10x10_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S10 .f32) (main_arg5 : FVec F S10x10 .f32) (main_arg6 : FVec F S10 .f32) (main_arg7 : FVec F S10x10 .f32) (main_arg8 : FVec F S10 .f32) (main_arg9 : FVec F S10x10 .f32) (main_arg10 : FVec F S10 .f32) (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S1 .f32) (main_arg18 : FVec F S10x1 .f32) (main_arg19 : FVec F S1 .f32) (main_v13 : IVec S_ 1) (main_v16 : IVec S1x10 1) : IVec S_ 1 :=
  let main_c_5 : IVec S_ 1 := constantI S_ 1 1#1
  let main_v17 : IVec S_ 1 := (fun x v => Host.reduce IntOp.andi x v reducesTo_S1x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x10 .f32 := Host.absf main_arg5
  let main_cst_8 : FVec F S_ .f32 := constant S_ .f32 0x7F800000#32
  let main_v25 : FVec F S10x10 .f32 := broadcastInDim S10x10 ![] bcast_S_S10x10 main_cst_8
  let main_v26 : IVec S10x10 1 := cmpf .olt main_v24 main_v25
  let main_c_9 : IVec S_ 1 := constantI S_ 1 1#1
  let main_v27 : IVec S_ 1 := (fun x v => Host.reduce IntOp.andi x v reducesTo_S10x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S4000000x1 .f32) (main_arg1 : FVec F S4000000x1 .f32) (main_arg2 : FVec F S1x10 .f32) (main_arg3 : FVec F S1x10 .f32) (main_arg4 : FVec F S10 .f32) (main_arg5 : FVec F S10x10 .f32) (main_arg6 : FVec F S10 .f32) (main_arg7 : FVec F S10x10 .f32) (main_arg8 : FVec F S10 .f32) (main_arg9 : FVec F S10x10 .f32) (main_arg10 : FVec F S10 .f32) (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S1 .f32) (main_arg18 : FVec F S10x1 .f32) (main_arg19 : FVec F S1 .f32) : IVec S_ 1 :=
  let main_v0 : FVec F S4000000x1 .f32 := Host.absf main_arg0
  let main_cst : FVec F S_ .f32 := constant S_ .f32 0x7F800000#32
  let main_v1 : FVec F S4000000x1 .f32 := broadcastInDim S4000000x1 ![] bcast_S_S4000000x1 main_cst
  let main_v2 : IVec S4000000x1 1 := cmpf .olt main_v0 main_v1
  let main_c : IVec S_ 1 := constantI S_ 1 1#1
  let main_v3 : IVec S_ 1 := (fun x v => Host.reduce IntOp.andi x v reducesTo_S4000000x1_S_d0_1 h_S_) main_v2 main_c
  let main_v4 : FVec F S4000000x1 .f32 := Host.absf main_arg1
  let main_cst_0 : FVec F S_ .f32 := constant S_ .f32 0x7F800000#32
  let main_v5 : FVec F S4000000x1 .f32 := broadcastInDim S4000000x1 ![] bcast_S_S4000000x1 main_cst_0
  let main_v6 : IVec S4000000x1 1 := cmpf .olt main_v4 main_v5
  let main_c_1 : IVec S_ 1 := constantI S_ 1 1#1
  let main_v7 : IVec S_ 1 := (fun x v => Host.reduce IntOp.andi x v reducesTo_S4000000x1_S_d0_1 h_S_) main_v6 main_c_1
  let main_v8 : IVec S_ 1 := andi main_v3 main_v7
  let main_v9 : FVec F S1x10 .f32 := Host.absf main_arg2
  let main_cst_2 : FVec F S_ .f32 := constant S_ .f32 0x7F800000#32
  let main_v10 : FVec F S1x10 .f32 := broadcastInDim S1x10 ![] bcast_S_S1x10 main_cst_2
  let main_v11 : IVec S1x10 1 := cmpf .olt main_v9 main_v10
  let main_c_3 : IVec S_ 1 := constantI S_ 1 1#1
  let main_v12 : IVec S_ 1 := (fun x v => Host.reduce IntOp.andi x v reducesTo_S1x10_S_d0_1 h_S_) main_v11 main_c_3
  let main_v13 : IVec S_ 1 := andi main_v8 main_v12
  let main_v14 : FVec F S1x10 .f32 := Host.absf main_arg3
  let main_cst_4 : FVec F S_ .f32 := constant S_ .f32 0x7F800000#32
  let main_v15 : FVec F S1x10 .f32 := broadcastInDim S1x10 ![] bcast_S_S1x10 main_cst_4
  let main_v16 : IVec S1x10 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S4000000x1 : Shape := ⟨2, ![4000000, 1]⟩
abbrev S1x10 : Shape := ⟨2, ![1, 10]⟩
abbrev S10 : Shape := ⟨1, ![10]⟩
abbrev S10x10 : Shape := ⟨2, ![10, 10]⟩
abbrev S1 : Shape := ⟨1, ![1]⟩
abbrev S10x1 : Shape := ⟨2, ![10, 1]⟩
abbrev S1x4000000 : Shape := ⟨2, ![1, 4000000]⟩
abbrev S1x1 : Shape := ⟨2, ![1, 1]⟩
abbrev S1x80000 : Shape := ⟨2, ![1, 80000]⟩
abbrev S10x80000 : Shape := ⟨2, ![10, 80000]⟩

abbrev nBuf : Space → Nat
  | .hbm => 42
  | .vmem => 24
  | .smem => 0
  | _ => 0

abbrev bufTy : (tb : Table) → Fin (tcTables nBuf tb) → BufTy
  | .hbm, ⟨0, _⟩ => ⟨S4000000x1, .f32⟩
  | .hbm, ⟨1, _⟩ => ⟨S4000000x1, .f32⟩
  | .hbm, ⟨2, _⟩ => ⟨S1x10, .f32⟩
  | .hbm, ⟨3, _⟩ => ⟨S1x10, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x10, .f32⟩
  | .hbm, ⟨10, _⟩ => ⟨S10, .f32⟩
  | .hbm, ⟨11, _⟩ => ⟨S10x10, .f32⟩
  | .hbm, ⟨12, _⟩ => ⟨S10, .f32⟩
  | .hbm, ⟨13, _⟩ => ⟨S10x10, .f32⟩
  | .hbm, ⟨14, _⟩ => ⟨S10, .f32⟩
  | .hbm, ⟨15, _⟩ => ⟨S10x10, .f32⟩
  | .hbm, ⟨16, _⟩ => ⟨S10, .f32⟩
  | .hbm, ⟨17, _⟩ => ⟨S1, .f32⟩
  | .hbm, ⟨18, _⟩ => ⟨S10x1, .f32⟩
  | .hbm, ⟨19, _⟩ => ⟨S1, .f32⟩
  | .hbm, ⟨20, _⟩ => ⟨S1x4000000, .f32⟩
  | .hbm, ⟨21, _⟩ => ⟨S1x4000000, .f32⟩
  | .hbm, ⟨22, _⟩ => ⟨S10x1, .f32⟩
  | .hbm, ⟨23, _⟩ => ⟨S10x1, .f32⟩
  | .hbm, ⟨24, _⟩ => ⟨S10x10, .f32⟩
  | .hbm, ⟨25, _⟩ => ⟨S10x10, .f32⟩
  | .hbm, ⟨26, _⟩ => ⟨S10x10, .f32⟩
  | .hbm, ⟨27, _⟩ => ⟨S10x10, .f32⟩
  | .hbm, ⟨28, _⟩ => ⟨S10x10, .f32⟩
  | .hbm, ⟨29, _⟩ => ⟨S10x10, .f32⟩
  | .hbm, ⟨30, _⟩ => ⟨S1x10, .f32⟩
  | .hbm, ⟨31, _⟩ => ⟨S10x1, .f32⟩
  | .hbm, ⟨32, _⟩ => ⟨S10x1, .f32⟩
  | .hbm, ⟨33, _⟩ => ⟨S10x1, .f32⟩
  | .hbm, ⟨34, _⟩ => ⟨S10x1, .f32⟩
  | .hbm, ⟨35, _⟩ => ⟨S10x1, .f32⟩
  | .hbm, ⟨36, _⟩ => ⟨S10x1, .f32⟩
  | .hbm, ⟨37, _⟩ => ⟨S10x1, .f32⟩
  | .hbm, ⟨38, _⟩ => ⟨S1x1, .f32⟩
  | .hbm, ⟨39, _⟩ => ⟨S1x1, .f32⟩
  | .hbm, ⟨40, _⟩ => ⟨S1x4000000, .f32⟩
  | .hbm, ⟨41, _⟩ => ⟨S4000000x1, .f32⟩
  | .local _ .vmem, ⟨0, _⟩ => ⟨S1x80000, .f32⟩
  | .local _ .vmem, ⟨1, _⟩ => ⟨S1x80000, .f32⟩
  | .local _ .vmem, ⟨2, _⟩ => ⟨S1x80000, .f32⟩
  | .local _ .vmem, ⟨3, _⟩ => ⟨S1x80000, .f32⟩
  | .local _ .vmem, ⟨4, _⟩ => ⟨S10x1, .f32⟩
  | .local _ .vmem, ⟨5, _⟩ => ⟨S10x1, .f32⟩
  | .local _ .vmem, ⟨6, _⟩ => ⟨S10x1, .f32⟩
  | .local _ .vmem, ⟨7, _⟩ => ⟨S10x10, .f32⟩
  | .local _ .vmem, ⟨8, _⟩ => ⟨S10x1, .f32⟩
  | .local _ .vmem, ⟨9, _⟩ => ⟨S10x10, .f32⟩
  | .local _ .vmem, ⟨10, _⟩ => ⟨S10x1, .f32⟩
  | .local _ .vmem, ⟨11, _⟩ => ⟨S10x10, .f32⟩
  | .local _ .vmem, ⟨12, _⟩ => ⟨S10x1, .f32⟩
  | .local _ .vmem, ⟨13, _⟩ => ⟨S10x10, .f32⟩
  | .local _ .vmem, ⟨14, _⟩ => ⟨S10x1, .f32⟩
  | .local _ .vmem, ⟨15, _⟩ => ⟨S10x10, .f32⟩
  | .local _ .vmem, ⟨16, _⟩ => ⟨S10x1, .f32⟩
  | .local _ .vmem, ⟨17, _⟩ => ⟨S10x10, .f32⟩
  | .local _ .vmem, ⟨18, _⟩ => ⟨S10x1, .f32⟩
  | .local _ .vmem, ⟨19, _⟩ => ⟨S1x1, .f32⟩
  | .local _ .vmem, ⟨20, _⟩ => ⟨S1x10, .f32⟩
  | .local _ .vmem, ⟨21, _⟩ => ⟨S1x1, .f32⟩
  | .local _ .vmem, ⟨22, _⟩ => ⟨S1x80000, .f32⟩
  | .local _ .vmem, ⟨23, _⟩ => ⟨S1x80000, .f32⟩
  | _, _ => ⟨S4000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S10x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S10x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S10x10 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S10x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x10 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x80000 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S4000000x1_S1x4000000 : S4000000x1.ShapeCasts S1x4000000
  transposes_S1x10_S10x1_1_0 : S1x10.Transposes [1, 0] S10x1
  transposes_S10x10_S10x10_1_0 : S10x10.Transposes [1, 0] S10x10
  transposes_S10x1_S1x10_1_0 : S10x1.Transposes [1, 0] S1x10
  bcast_S10_S10x1_0 : S10.BroadcastsInDim S10x1 (![0] : Fin 1 → Fin S10x1.rank)
  bcast_S1_S1x1_0 : S1.BroadcastsInDim S1x1 (![0] : Fin 1 → Fin S1x1.rank)
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10x1_S10x1_0_0 : ∀ a, (![0, 0] : Fin 2 → Nat) a + S10x1.size a ≤ S10x1.size a
  h_S10x1 : 0 < S10x1.numel
  shapeCasts_S10x1_S10x1 : S10x1.ShapeCasts S10x1
  broadcasts_S10x1_S10x80000 : S10x1.Broadcasts S10x80000
  broadcasts_S1x80000_S10x80000 : S1x80000.Broadcasts S10x80000
  broadcasts_S1x1_S10x80000 : S1x1.Broadcasts S10x80000
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x1_S1x80000 : S1x1.Broadcasts S1x80000
  shapeCasts_S1x4000000_S4000000x1 : S1x4000000.ShapeCasts S4000000x1
  dot_S10x10_S10x80000_S10x80000_1_0_0_1_n_n_wf : DotDims.WF S10x10 S10x80000 S10x80000 [1] [0] [0] [1] [] []
  dot_S1x10_S10x80000_S1x80000_1_0_0_1_n_n_wf : DotDims.WF S1x10 S10x80000 S1x80000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80000.size a ≤ S1x4000000.size a
  hwx0_0 : ∀ i : grid0.Coords, EltTy.bits .f32 = 32 ∨ (Rect.block (s := S1x4000000) S1x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80000.size a ≤ S1x4000000.size a
  hwx0_1 : ∀ i : grid0.Coords, EltTy.bits .f32 = 32 ∨ (Rect.block (s := S1x4000000) S1x80000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1.size a ≤ S10x1.size a
  hwx0_2 : ∀ i : grid0.Coords, EltTy.bits .f32 = 32 ∨ (Rect.block (s := S10x1) S10x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x1.size a ≤ S10x1.size a
  hwx0_3 : ∀ i : grid0.Coords, EltTy.bits .f32 = 32 ∨ (Rect.block (s := S10x1) S10x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x1.size a ≤ S10x1.size a
  hwx0_4 : ∀ i : grid0.Coords, EltTy.bits .f32 = 32 ∨ (Rect.block (s := S10x1) S10x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x10.size a ≤ S10x10.size a
  hwx0_5 : ∀ i : grid0.Coords, EltTy.bits .f32 = 32 ∨ (Rect.block (s := S10x10) S10x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x1.size a ≤ S10x1.size a
  hwx0_6 : ∀ i : grid0.Coords, EltTy.bits .f32 = 32 ∨ (Rect.block (s := S10x1) S10x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x10.size a ≤ S10x10.size a
  hwx0_7 : ∀ i : grid0.Coords, EltTy.bits .f32 = 32 ∨ (Rect.block (s := S10x10) S10x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10x1.size a ≤ S10x1.size a
  hwx0_8 : ∀ i : grid0.Coords, EltTy.bits .f32 = 32 ∨ (Rect.block (s := S10x1) S10x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10x10.size a ≤ S10x10.size a
  hwx0_9 : ∀ i : grid0.Coords, EltTy.bits .f32 = 32 ∨ (Rect.block (s := S10x10) S10x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S10x1.size a ≤ S10x1.size a
  hwx0_10 : ∀ i : grid0.Coords, EltTy.bits .f32 = 32 ∨ (Rect.block (s := S10x1) S10x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S10x10.size a ≤ S10x10.size a
  hwx0_11 : ∀ i : grid0.Coords, EltTy.bits .f32 = 32 ∨ (Rect.block (s := S10x10) S10x10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S10x1.size a ≤ S10x1.size a
  hwx0_12 : ∀ i : grid0.Coords, EltTy.bits .f32 = 32 ∨ (Rect.block (s := S10x1) S10x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S10x10.size a ≤ S10x10.size a
  hwx0_13 : ∀ i : grid0.Coords, EltTy.bits .f32 = 32 ∨ (Rect.block (s := S10x10) S10x10.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S10x1.size a ≤ S10x1.size a
  hwx0_14 : ∀ i : grid0.Coords, EltTy.bits .f32 = 32 ∨ (Rect.block (s := S10x1) S10x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S10x10.size a ≤ S10x10.size a
  hwx0_15 : ∀ i : grid0.Coords, EltTy.bits .f32 = 32 ∨ (Rect.block (s := S10x10) S10x10.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S10x1.size a ≤ S10x1.size a
  hwx0_16 : ∀ i : grid0.Coords, EltTy.bits .f32 = 32 ∨ (Rect.block (s := S10x1) S10x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1.size a ≤ S1x1.size a
  hwx0_17 : ∀ i : grid0.Coords, EltTy.bits .f32 = 32 ∨ (Rect.block (s := S1x1) S1x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x10.size a ≤ S1x10.size a
  hwx0_18 : ∀ i : grid0.Coords, EltTy.bits .f32 = 32 ∨ (Rect.block (s := S1x10) S1x10.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x80000.size a ≤ S1x4000000.size a
  hwx0_20 : ∀ i : grid0.Coords, EltTy.bits .f32 = 32 ∨ (Rect.block (s := S1x4000000) S1x80000.size (cc0_transform_20 i) (hinb0_20 i)).WholeWords (EltTy.packing .f32)

variable [Facts₀]

def dot_S10x10_S10x80000_S10x80000_1_0_0_1_n_n : DotDims S10x10 S10x80000 S10x80000 where
  lhsContracting := [1]
  rhsContracting := [0]
  lhsNonContracting := [0]
  rhsNonContracting := [1]
  lhsBatch := []
  rhsBatch := []
  wf := dot_S10x10_S10x80000_S10x80000_1_0_0_1_n_n_wf
def dot_S1x10_S10x80000_S1x80000_1_0_0_1_n_n : DotDims S1x10 S10x80000 S1x80000 where
  lhsContracting := [1]
  rhsContracting := [0]
  lhsNonContracting := [0]
  rhsNonContracting := [1]
  lhsBatch := []
  rhsBatch := []
  wf := dot_S1x10_S10x80000_S1x80000_1_0_0_1_n_n_wf

abbrev win0_0 : Pipeline.Window sig grid0 :=
  Pipeline.Window.ofSpec (Memref.whole main_v0) S1x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S10x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S10x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S10x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S10x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S10x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S10x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S10x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S10x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S10x10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S10x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S10x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S10x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S10x10.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v17) S10x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v19) S1x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v10) S1x10.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v18) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v20) S1x80000.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S4000000x1 : Shape := ⟨2, ![4000000, 1]⟩
abbrev S1x10 : Shape := ⟨2, ![1, 10]⟩
abbrev S10 : Shape := ⟨1, ![10]⟩
abbrev S10x10 : Shape := ⟨2, ![10, 10]⟩
abbrev S1 : Shape := ⟨1, ![1]⟩
abbrev S10x1 : Shape := ⟨2, ![10, 1]⟩
abbrev S4000000x10 : Shape := ⟨2, ![4000000, 10]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S4000000x1, .f32⟩
  | .hbm, ⟨1, _⟩ => ⟨S4000000x1, .f32⟩
  | .hbm, ⟨2, _⟩ => ⟨S1x10, .f32⟩
  | .hbm, ⟨3, _⟩ => ⟨S1x10, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x10, .f32⟩
  | .hbm, ⟨10, _⟩ => ⟨S10, .f32⟩
  | .hbm, ⟨11, _⟩ => ⟨S10x10, .f32⟩
  | .hbm, ⟨12, _⟩ => ⟨S10, .f32⟩
  | .hbm, ⟨13, _⟩ => ⟨S10x10, .f32⟩
  | .hbm, ⟨14, _⟩ => ⟨S10, .f32⟩
  | .hbm, ⟨15, _⟩ => ⟨S10x10, .f32⟩
  | .hbm, ⟨16, _⟩ => ⟨S10, .f32⟩
  | .hbm, ⟨17, _⟩ => ⟨S1, .f32⟩
  | .hbm, ⟨18, _⟩ => ⟨S10x1, .f32⟩
  | .hbm, ⟨19, _⟩ => ⟨S1, .f32⟩
  | .hbm, ⟨20, _⟩ => ⟨S4000000x10, .f32⟩
  | .hbm, ⟨21, _⟩ => ⟨S4000000x10, .f32⟩
  | .hbm, ⟨22, _⟩ => ⟨S4000000x10, .f32⟩
  | .hbm, ⟨23, _⟩ => ⟨S1x10, .f32⟩
  | .hbm, ⟨24, _⟩ => ⟨S4000000x10, .f32⟩
  | .hbm, ⟨25, _⟩ => ⟨S4000000x10, .f32⟩
  | .hbm, ⟨26, _⟩ => ⟨S1x1, .f32⟩
  | .hbm, ⟨27, _⟩ => ⟨S4000000x10, .f32⟩
  | .hbm, ⟨28, _⟩ => ⟨S4000000x10, .f32⟩
  | .hbm, ⟨29, _⟩ => ⟨S4000000x10, .f32⟩
  | .hbm, ⟨30, _⟩ => ⟨S4000000x10, .f32⟩
  | .hbm, ⟨31, _⟩ => ⟨S1x10, .f32⟩
  | .hbm, ⟨32, _⟩ => ⟨S4000000x10, .f32⟩
  | .hbm, ⟨33, _⟩ => ⟨S4000000x10, .f32⟩
  | .hbm, ⟨34, _⟩ => ⟨S1x1, .f32⟩
  | .hbm, ⟨35, _⟩ => ⟨S4000000x10, .f32⟩
  | .hbm, ⟨36, _⟩ => ⟨S4000000x10, .f32⟩
  | .hbm, ⟨37, _⟩ => ⟨S4000000x10, .f32⟩
  | .hbm, ⟨38, _⟩ => ⟨S4000000x10, .f32⟩
  | .hbm, ⟨39, _⟩ => ⟨S1x10, .f32⟩
  | .hbm, ⟨40, _⟩ => ⟨S4000000x10, .f32⟩
  | .hbm, ⟨41, _⟩ => ⟨S4000000x10, .f32⟩
  | .hbm, ⟨42, _⟩ => ⟨S1x1, .f32⟩
  | .hbm, ⟨43, _⟩ => ⟨S4000000x10, .f32⟩
  | .hbm, ⟨44, _⟩ => ⟨S4000000x10, .f32⟩
  | .hbm, ⟨45, _⟩ => ⟨S4000000x10, .f32⟩
  | .hbm, ⟨46, _⟩ => ⟨S4000000x10, .f32⟩
  | .hbm, ⟨47, _⟩ => ⟨S1x10, .f32⟩
  | .hbm, ⟨48, _⟩ => ⟨S4000000x10, .f32⟩
  | .hbm, ⟨49, _⟩ => ⟨S4000000x10, .f32⟩
  | .hbm, ⟨50, _⟩ => ⟨S1x1, .f32⟩
  | .hbm, ⟨51, _⟩ => ⟨S4000000x10, .f32⟩
  | .hbm, ⟨52, _⟩ => ⟨S4000000x10, .f32⟩
  | .hbm, ⟨53, _⟩ => ⟨S4000000x10, .f32⟩
  | .hbm, ⟨54, _⟩ => ⟨S4000000x10, .f32⟩
  | .hbm, ⟨55, _⟩ => ⟨S1x10, .f32⟩
  | .hbm, ⟨56, _⟩ => ⟨S4000000x10, .f32⟩
  | .hbm, ⟨57, _⟩ => ⟨S4000000x10, .f32⟩
  | .hbm, ⟨58, _⟩ => ⟨S1x1, .f32⟩
  | .hbm, ⟨59, _⟩ => ⟨S4000000x10, .f32⟩
  | .hbm, ⟨60, _⟩ => ⟨S4000000x10, .f32⟩
  | .hbm, ⟨61, _⟩ => ⟨S4000000x10, .f32⟩
  | .hbm, ⟨62, _⟩ => ⟨S4000000x10, .f32⟩
  | .hbm, ⟨63, _⟩ => ⟨S1x10, .f32⟩
  | .hbm, ⟨64, _⟩ => ⟨S4000000x10, .f32⟩
  | .hbm, ⟨65, _⟩ => ⟨S4000000x10, .f32⟩
  | .hbm, ⟨66, _⟩ => ⟨S1x1, .f32⟩
  | .hbm, ⟨67, _⟩ => ⟨S4000000x10, .f32⟩
  | .hbm, ⟨68, _⟩ => ⟨S4000000x10, .f32⟩
  | .hbm, ⟨69, _⟩ => ⟨S4000000x10, .f32⟩
  | .hbm, ⟨70, _⟩ => ⟨S4000000x10, .f32⟩
  | .hbm, ⟨71, _⟩ => ⟨S1x10, .f32⟩
  | .hbm, ⟨72, _⟩ => ⟨S4000000x10, .f32⟩
  | .hbm, ⟨73, _⟩ => ⟨S4000000x10, .f32⟩
  | .hbm, ⟨74, _⟩ => ⟨S1x1, .f32⟩
  | .hbm, ⟨75, _⟩ => ⟨S4000000x10, .f32⟩
  | .hbm, ⟨76, _⟩ => ⟨S4000000x10, .f32⟩
  | .hbm, ⟨77, _⟩ => ⟨S4000000x10, .f32⟩
  | .hbm, ⟨78, _⟩ => ⟨S4000000x1, .f32⟩
  | .hbm, ⟨79, _⟩ => ⟨S1x1, .f32⟩
  | .hbm, ⟨80, _⟩ => ⟨S4000000x1, .f32⟩
  | .hbm, ⟨81, _⟩ => ⟨S4000000x1, .f32⟩
  | _, _ => ⟨S4000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  bcast_S10_S1x10_1 : S10.BroadcastsInDim S1x10 (![1] : Fin 1 → Fin S1x10.rank)
  bcast_S1x10_S4000000x10_0_1 : S1x10.BroadcastsInDim S4000000x10 (![0, 1] : Fin 2 → Fin S4000000x10.rank)
  bcast_S1_S1x1_1 : S1.BroadcastsInDim S1x1 (![1] : Fin 1 → Fin S1x1.rank)
  bcast_S1x1_S4000000x10_0_1 : S1x1.BroadcastsInDim S4000000x10 (![0, 1] : Fin 2 → Fin S4000000x10.rank)
  bcast_S1x1_S4000000x1_0_1 : S1x1.BroadcastsInDim S4000000x1 (![0, 1] : Fin 2 → Fin S4000000x1.rank)
  dot_S4000000x1_S1x10_S4000000x10_1_0_0_1_n_n_wf : DotDims.WF S4000000x1 S1x10 S4000000x10 [1] [0] [0] [1] [] []
  dot_S4000000x10_S10x10_S4000000x10_1_0_0_1_n_n_wf : DotDims.WF S4000000x10 S10x10 S4000000x10 [1] [0] [0] [1] [] []
  dot_S4000000x10_S10x1_S4000000x1_1_0_0_1_n_n_wf : DotDims.WF S4000000x10 S10x1 S4000000x1 [1] [0] [0] [1] [] []

variable [Facts₀]

def dot_S4000000x1_S1x10_S4000000x10_1_0_0_1_n_n : DotDims S4000000x1 S1x10 S4000000x10 where
  lhsContracting := [1]
  rhsContracting := [0]
  lhsNonContracting := [0]
  rhsNonContracting := [1]
  lhsBatch := []
  rhsBatch := []
  wf := dot_S4000000x1_S1x10_S4000000x10_1_0_0_1_n_n_wf
def dot_S4000000x10_S10x10_S4000000x10_1_0_0_1_n_n : DotDims S4000000x10 S10x10 S4000000x10 where
  lhsContracting := [1]
  rhsContracting := [0]
  lhsNonContracting := [0]
  rhsNonContracting := [1]
  lhsBatch := []
  rhsBatch := []
  wf := dot_S4000000x10_S10x10_S4000000x10_1_0_0_1_n_n_wf
def dot_S4000000x10_S10x1_S4000000x1_1_0_0_1_n_n : DotDims S4000000x10 S10x1 S4000000x1 where
  lhsContracting := [1]
  rhsContracting := [0]
  lhsNonContracting := [0]
  rhsNonContracting := [1]
  lhsBatch := []
  rhsBatch := []
  wf := dot_S4000000x10_S10x1_S4000000x1_1_0_0_1_n_n_wf

class Facts : Prop extends Facts₀ where

variable [Facts]
-- ==== Proof.RowNet.lean ====
/-
  A scalar-input multilayer perceptron on ONE row, over the extended reals.

  A row carries two scalars `a` and `b`. The first layer sends them to ten hidden units,
  `tanh (α · ((a · w₁ j + b · w₂ j) + b₁ j))`; six dense layers follow, each
  `tanh (α · ((∑ h, L h · W h j) + B j))`; the last layer is the affine form `(∑ h, L h · w₉ h) + b₉`.

  Every product here may be written in either order and every finite sum in any order: multiplication of extended
  reals is commutative and finite sums range over a commutative monoid. No distributivity or cancellation is used, so
  nothing depends on the entries being finite. The two lemmas `first_swap` and `dense_swap` are the two places where
  the order of the factors matters between a weights-on-the-left and a weights-on-the-right reading of a layer.
-/
import Idealize.ShloMosaic.PureOps.Ideal
import Idealize.ShloMosaic.Lib.ValueIdx

noncomputable section

open scoped BigOperators

namespace Cert.RowNet

open Idealize.ShloMosaic Idealize.ShloMosaic.ValueIdx

/-- The first layer on the row's two scalars. -/
def first (α : EReal) (w1 w2 b1 : Fin 10 → EReal) (a b : EReal) : Fin 10 → EReal :=
  fun j => Ideal.tanh (α * ((a * w1 j + b * w2 j) + b1 j))

/-- A dense layer: hidden vector times the weight matrix's column, plus the bias, scaled and squashed. -/
def dense (α : EReal) (W : Fin 10 → Fin 10 → EReal) (B : Fin 10 → EReal) (L : Fin 10 → EReal) : Fin 10 → EReal :=
  fun j => Ideal.tanh (α * ((∑ h : Fin 10, L h * W h j) + B j))

/-- The output layer: an affine form of the hidden vector. -/
def last (w9 : Fin 10 → EReal) (b9 : EReal) (L : Fin 10 → EReal) : EReal :=
  (∑ h : Fin 10, L h * w9 h) + b9

/-- The first layer with the weights written on the left of each product. -/
theorem first_swap (α : EReal) (w1 w2 b1 : Fin 10 → EReal) (a b : EReal) (j : Fin 10) :
    Ideal.tanh (α * ((w1 j * a + w2 j * b) + b1 j)) = first α w1 w2 b1 a b j := by
  unfold first
  rw [mul_comm (w1 j) a, mul_comm (w2 j) b]

/-- A dense layer with the weights written on the left of each product. -/
theorem dense_swap (α : EReal) (W : Fin 10 → Fin 10 → EReal) (B : Fin 10 → EReal) (L : Fin 10 → EReal) (j : Fin 10) :
    Ideal.tanh (α * ((∑ h : Fin 10, W h j * L h) + B j)) = dense α W B L j := by
  unfold dense
  rw [Finset.sum_congr rfl (fun h _ => mul_comm (W h j) (L h))]

/-- The output layer with the weights written on the left of each product. -/
theorem last_swap (w9 : Fin 10 → EReal) (b9 : EReal) (L : Fin 10 → EReal) :
    (∑ h : Fin 10, w9 h * L h) + b9 = last w9 b9 L := by
  unfold last
  rw [Finset.sum_congr rfl (fun h _ => mul_comm (w9 h) (L h))]

/-- The network's parameters, as plain functions of the hidden units' numbers. -/
structure Params where
  α : EReal
  w1 : Fin 10 → EReal
  w2 : Fin 10 → EReal
  b1 : Fin 10 → EReal
  W3 : Fin 10 → Fin 10 → EReal
  B3 : Fin 10 → EReal
  W4 : Fin 10 → Fin 10 → EReal
  B4 : Fin 10 → EReal
  W5 : Fin 10 → Fin 10 → EReal
  B5 : Fin 10 → EReal
  W6 : Fin 10 → Fin 10 → EReal
  B6 : Fin 10 → EReal
  W7 : Fin 10 → Fin 10 → EReal
  B7 : Fin 10 → EReal
  W8 : Fin 10 → Fin 10 → EReal
  B8 : Fin 10 → EReal
  w9 : Fin 10 → EReal
  b9 : EReal

/-- The hidden vector after the first two layers. -/
def hid3 (p : Params) (a b : EReal) : Fin 10 → EReal := dense p.α p.W3 p.B3 (first p.α p.w1 p.w2 p.b1 a b)
/-- The hidden vector after the next four layers. -/
def hid7 (p : Params) (a b : EReal) : Fin 10 → EReal :=
  dense p.α p.W7 p.B7 (dense p.α p.W6 p.B6 (dense p.α p.W5 p.B5 (dense p.α p.W4 p.B4 (hid3 p a b))))
/-- The row's result. -/
def net (p : Params) (a b : EReal) : EReal := last p.w9 p.b9 (dense p.α p.W8 p.B8 (hid7 p a b))

/-- The parameters read off the weight, bias and scale arrays in the layout `[in, out]` for weights. -/
def paramsOf (W1 W2 : FVec Ideal ⟨2, ![1, 10]⟩ .f32) (B1 : FVec Ideal ⟨1, ![10]⟩ .f32)
    (W3 : FVec Ideal ⟨2, ![10, 10]⟩ .f32) (B3 : FVec Ideal ⟨1, ![10]⟩ .f32)
    (W4 : FVec Ideal ⟨2, ![10, 10]⟩ .f32) (B4 : FVec Ideal ⟨1, ![10]⟩ .f32)
    (W5 : FVec Ideal ⟨2, ![10, 10]⟩ .f32) (B5 : FVec Ideal ⟨1, ![10]⟩ .f32)
    (W6 : FVec Ideal ⟨2, ![10, 10]⟩ .f32) (B6 : FVec Ideal ⟨1, ![10]⟩ .f32)
    (W7 : FVec Ideal ⟨2, ![10, 10]⟩ .f32) (B7 : FVec Ideal ⟨1, ![10]⟩ .f32)
    (W8 : FVec Ideal ⟨2, ![10, 10]⟩ .f32) (B8 : FVec Ideal ⟨1, ![10]⟩ .f32)
    (alpha : FVec Ideal ⟨1, ![1]⟩ .f32) (W9 : FVec Ideal ⟨2, ![10, 1]⟩ .f32) (B9 : FVec Ideal ⟨1, ![1]⟩ .f32) : Params where
  α := alpha (ix1 0)
  w1 := fun j => W1 (ix2 0 j)
  w2 := fun j => W2 (ix2 0 j)
  b1 := fun j => B1 (ix1 j)
  W3 := fun h j => W3 (ix2 h j)
  B3 := fun j => B3 (ix1 j)
  W4 := fun h j => W4 (ix2 h j)
  B4 := fun j => B4 (ix1 j)
  W5 := fun h j => W5 (ix2 h j)
  B5 := fun j => B5 (ix1 j)
  W6 := fun h j => W6 (ix2 h j)
  B6 := fun j => B6 (ix1 j)
  W7 := fun h j => W7 (ix2 h j)
  B7 := fun j => B7 (ix1 j)
  W8 := fun h j => W8 (ix2 h j)
  B8 := fun j => B8 (ix1 j)
  w9 := fun h => W9 (ix2 h 0)
  b9 := B9 (ix1 0)

/-- The whole result column: row `n` holds the network's value at that row's two scalars. -/
def column (p : Params) (x1 x2 : FVec Ideal ⟨2, ![4000000, 1]⟩ .f32) : FVec Ideal ⟨2, ![4000000, 1]⟩ .f32 :=
  fun i => net p (x1 (ix2 (i 0) 0)) (x2 (ix2 (i 0) 0))

end Cert.RowNet

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.KernelRow.lean ====
/-
  The kernel's arithmetic on one lane of a block, at the ideal values.

  A block carries 80000 rows along its lanes. The body holds the hidden vector as a column per lane, `[10, 80000]`,
  and every weight matrix transposed, so each layer is `Wᵀ · L` with the weight on the LEFT of each product; the
  first layer is an outer product written the same way. Read at hidden unit `j` and lane `q`, each layer is the row
  network's layer with the factors swapped, which costs nothing over a commutative multiplication.
-/
import proofs.«181316_j41609643164201_1_alg».proof.Proof.Gen.KernelIdeal.Skeleton
import proofs.«181316_j41609643164201_1_alg».proof.Proof.RowNet
import proofs.«181316_j41609643164201_1_alg».proof.Proof.LibMatmulAt
import Idealize.ShloMosaic.Lib.Pipeline.Value
import Idealize.ShloMosaic.Lib.ValueIdx
import Idealize.ShloMosaic.PureOps.Ideal.Laws

noncomputable section

open scoped BigOperators

namespace Cert.KernelRow

open Cert.KernelIdeal Cert.KernelIdeal.Gen Idealize.ShloMosaic Idealize.ShloMosaic.ValueIdx Cert.RowNet

/-! ## Broadcasts read at a hidden unit and a lane -/

/-- A column `[10, 1]` spread along the lanes reads its own row. -/
theorem col_at (B : FVec Ideal S10x1 .f32) (j : Fin 10) (q : Fin 80000) :
    broadcastTo S10x80000 B broadcasts_S10x1_S10x80000 (ix2 j q) = B (ix2 j 0) :=
  broadcastTo_apply B broadcasts_S10x1_S10x80000 (ix2 j q) (ix2 j 0) (fun a => match a with
    | ⟨0, _⟩ => by show j.val = if (10 : Nat) = 1 then 0 else j.val; rw [if_neg (by decide)]
    | ⟨1, _⟩ => by show (0 : Nat) = if (1 : Nat) = 1 then 0 else q.val; rw [if_pos rfl])

/-- A row `[1, 80000]` spread down the hidden units reads its own lane. -/
theorem row_at (x : FVec Ideal S1x80000 .f32) (j : Fin 10) (q : Fin 80000) :
    broadcastTo S10x80000 x broadcasts_S1x80000_S10x80000 (ix2 j q) = x (ix2 0 q) :=
  broadcastTo_apply x broadcasts_S1x80000_S10x80000 (ix2 j q) (ix2 0 q) (fun a => match a with
    | ⟨0, _⟩ => by show (0 : Nat) = if (1 : Nat) = 1 then 0 else j.val; rw [if_pos rfl]
    | ⟨1, _⟩ => by show q.val = if (80000 : Nat) = 1 then 0 else q.val; rw [if_neg (by decide)])

/-- A single entry `[1, 1]` spread over the whole tile reads that entry. -/
theorem one_at (a : FVec Ideal S1x1 .f32) (j : Fin 10) (q : Fin 80000) :
    broadcastTo S10x80000 a broadcasts_S1x1_S10x80000 (ix2 j q) = a (ix2 0 0) :=
  broadcastTo_apply a broadcasts_S1x1_S10x80000 (ix2 j q) (ix2 0 0) (fun a => match a with
    | ⟨0, _⟩ => by show (0 : Nat) = if (1 : Nat) = 1 then 0 else j.val; rw [if_pos rfl]
    | ⟨1, _⟩ => by show (0 : Nat) = if (1 : Nat) = 1 then 0 else q.val; rw [if_pos rfl])

/-- A single entry `[1, 1]` spread along the lanes of a row reads that entry. -/
theorem one_row_at (a : FVec Ideal S1x1 .f32) (z : Fin 1) (q : Fin 80000) :
    broadcastTo S1x80000 a broadcasts_S1x1_S1x80000 (ix2 z q) = a (ix2 0 0) :=
  broadcastTo_apply a broadcasts_S1x1_S1x80000 (ix2 z q) (ix2 0 0) (fun a => match a with
    | ⟨0, _⟩ => by show (0 : Nat) = if (1 : Nat) = 1 then 0 else z.val; rw [if_pos rfl]
    | ⟨1, _⟩ => by show (0 : Nat) = if (1 : Nat) = 1 then 0 else q.val; rw [if_pos rfl])

/-! ## The layers as the body writes them -/

/-- The first layer: the outer products of the two weight columns with the two input rows, plus the bias column. -/
theorem kfirst_at (α : FVec Ideal S1x1 .f32) (w1 w2 b1 : FVec Ideal S10x1 .f32) (x1 x2 : FVec Ideal S1x80000 .f32)
    (j : Fin 10) (q : Fin 80000) :
    tanh (mulf (broadcastTo S10x80000 α broadcasts_S1x1_S10x80000)
      (addf (addf (mulf (broadcastTo S10x80000 w1 broadcasts_S10x1_S10x80000) (broadcastTo S10x80000 x1 broadcasts_S1x80000_S10x80000))
                  (mulf (broadcastTo S10x80000 w2 broadcasts_S10x1_S10x80000) (broadcastTo S10x80000 x2 broadcasts_S1x80000_S10x80000)))
            (broadcastTo S10x80000 b1 broadcasts_S10x1_S10x80000))) (ix2 j q)
      = first (α (ix2 0 0)) (fun j => w1 (ix2 j 0)) (fun j => w2 (ix2 j 0)) (fun j => b1 (ix2 j 0)) (x1 (ix2 0 q)) (x2 (ix2 0 q)) j := by
  show Ideal.tanh (broadcastTo S10x80000 α broadcasts_S1x1_S10x80000 (ix2 j q)
      * ((broadcastTo S10x80000 w1 broadcasts_S10x1_S10x80000 (ix2 j q) * broadcastTo S10x80000 x1 broadcasts_S1x80000_S10x80000 (ix2 j q)
          + broadcastTo S10x80000 w2 broadcasts_S10x1_S10x80000 (ix2 j q) * broadcastTo S10x80000 x2 broadcasts_S1x80000_S10x80000 (ix2 j q))
        + broadcastTo S10x80000 b1 broadcasts_S10x1_S10x80000 (ix2 j q))) = _
  rw [one_at, col_at, col_at, col_at, row_at, row_at]
  exact first_swap (α (ix2 0 0)) (fun j => w1 (ix2 j 0)) (fun j => w2 (ix2 j 0)) (fun j => b1 (ix2 j 0)) (x1 (ix2 0 q)) (x2 (ix2 0 q)) j

/-- A dense layer: the transposed weight matrix times the hidden columns, plus the bias column. -/
theorem kdense_at (α : FVec Ideal S1x1 .f32) (W : FVec Ideal S10x10 .f32) (B : FVec Ideal S10x1 .f32) (L : FVec Ideal S10x80000 .f32)
    (j : Fin 10) (q : Fin 80000) (Lrow : Fin 10 → EReal) (hL : ∀ h, L (ix2 h q) = Lrow h) :
    tanh (mulf (broadcastTo S10x80000 α broadcasts_S1x1_S10x80000)
      (addf (matmul dot_S10x10_S10x80000_S10x80000_1_0_0_1_n_n none W L (constant S10x80000 .f32 0x00000000#32))
            (broadcastTo S10x80000 B broadcasts_S10x1_S10x80000))) (ix2 j q)
      = dense (α (ix2 0 0)) (fun h j => W (ix2 j h)) (fun j => B (ix2 j 0)) Lrow j := by
  show Ideal.tanh (broadcastTo S10x80000 α broadcasts_S1x1_S10x80000 (ix2 j q)
      * (FloatOps.matmul dot_S10x10_S10x80000_S10x80000_1_0_0_1_n_n none W L (constant S10x80000 .f32 0x00000000#32) (ix2 j q)
        + broadcastTo S10x80000 B broadcasts_S10x1_S10x80000 (ix2 j q))) = _
  rw [one_at, col_at, Cert.LibMatmulAt.matmul_zero_at dot_S10x10_S10x80000_S10x80000_1_0_0_1_n_n rfl rfl rfl rfl rfl rfl]
  rw [Finset.sum_congr rfl (fun h _ => congrArg (W (ix2 j h) * ·) (hL h))]
  exact dense_swap (α (ix2 0 0)) (fun h j => W (ix2 j h)) (fun j => B (ix2 j 0)) Lrow j

/-- The output layer: the transposed weight row times the hidden columns, plus the bias entry. -/
theorem klast_at (w9 : FVec Ideal S1x10 .f32) (b9 : FVec Ideal S1x1 .f32) (L : FVec Ideal S10x80000 .f32)
    (z : Fin 1) (q : Fin 80000) (Lrow : Fin 10 → EReal) (hL : ∀ h, L (ix2 h q) = Lrow h) :
    addf (matmul dot_S1x10_S10x80000_S1x80000_1_0_0_1_n_n none w9 L (constant S1x80000 .f32 0x00000000#32))
         (broadcastTo S1x80000 b9 broadcasts_S1x1_S1x80000) (ix2 z q)
      = last (fun h => w9 (ix2 0 h)) (b9 (ix2 0 0)) Lrow := by
  obtain rfl : z = 0 := Subsingleton.elim _ _
  show FloatOps.matmul dot_S1x10_S10x80000_S1x80000_1_0_0_1_n_n none w9 L (constant S1x80000 .f32 0x00000000#32) (ix2 0 q)
        + broadcastTo S1x80000 b9 broadcasts_S1x1_S1x80000 (ix2 0 q) = _
  rw [one_row_at, Cert.LibMatmulAt.matmul_zero_at dot_S1x10_S10x80000_S1x80000_1_0_0_1_n_n rfl rfl rfl rfl rfl rfl]
  rw [Finset.sum_congr rfl (fun h _ => congrArg (w9 (ix2 0 h) * ·) (hL h))]
  exact last_swap (fun h => w9 (ix2 0 h)) (b9 (ix2 0 0)) Lrow

/-! ## The body's payloads, and the whole body on a lane -/

/-- The first payload: the first layer followed by one dense layer. -/
theorem pay3_at (v0 v2 : Vec Ideal S1x80000 .f32) (v4 : Vec Ideal S1x1 .f32) (v6 v8 v10 : Vec Ideal S10x1 .f32)
    (v24 : Vec Ideal S10x10 .f32) (v26 : Vec Ideal S10x1 .f32) (j : Fin 10) (q : Fin 80000) :
    k0_pay3 (F := Ideal) v0 v2 v4 v6 v8 v10 v24 v26 (ix2 j q)
      = dense (v4 (ix2 0 0)) (fun h j => v24 (ix2 j h)) (fun j => v26 (ix2 j 0))
          (first (v4 (ix2 0 0)) (fun j => v6 (ix2 j 0)) (fun j => v8 (ix2 j 0)) (fun j => v10 (ix2 j 0)) (v0 (ix2 0 q)) (v2 (ix2 0 q))) j := by
  refine (kdense_at _ _ _ _ j q _ (fun h => kfirst_at _ _ _ _ _ _ h q)).trans ?_
  simp only [k0_pay2, shapeCast_self]

/-- The second payload: four dense layers over the hidden columns handed to it. -/
theorem pay6_at (v5 : FVec Ideal S1x1 .f32) (v33 : FVec Ideal S10x80000 .f32) (v35 : FVec Ideal S10x10 .f32) (v37 : FVec Ideal S10x1 .f32)
    (v44 : Vec Ideal S10x10 .f32) (v46 : Vec Ideal S10x1 .f32) (v54 : Vec Ideal S10x10 .f32) (v56 : Vec Ideal S10x1 .f32)
    (v64 : Vec Ideal S10x10 .f32) (v66 : Vec Ideal S10x1 .f32) (j : Fin 10) (q : Fin 80000)
    (Lrow : Fin 10 → EReal) (hL : ∀ h, v33 (ix2 h q) = Lrow h) :
    k0_pay6 (F := Ideal) v5 v33 v35 v37 v44 v46 v54 v56 v64 v66 (ix2 j q)
      = dense (v5 (ix2 0 0)) (fun h j => v64 (ix2 j h)) (fun j => v66 (ix2 j 0))
          (dense (v5 (ix2 0 0)) (fun h j => v54 (ix2 j h)) (fun j => v56 (ix2 j 0))
            (dense (v5 (ix2 0 0)) (fun h j => v44 (ix2 j h)) (fun j => v46 (ix2 j 0))
              (dense (v5 (ix2 0 0)) (fun h j => v35 (ix2 j h)) (fun j => v37 (ix2 j 0)) Lrow))) j := by
  refine (kdense_at _ _ _ _ j q _ (fun h => kdense_at _ _ _ _ h q _ (fun h => kdense_at _ _ _ _ h q _
    (fun h => kdense_at _ _ _ _ h q _ hL)))).trans ?_
  simp only [shapeCast_self]

/-- The stored payload: one dense layer and the output layer over the hidden columns handed to it. -/
theorem pay1_at (v5 : FVec Ideal S1x1 .f32) (v73 : FVec Ideal S10x80000 .f32) (v75 : FVec Ideal S10x10 .f32) (v77 : FVec Ideal S10x1 .f32)
    (v84 : Vec Ideal S1x10 .f32) (v86 : Vec Ideal S1x1 .f32) (z : Fin 1) (q : Fin 80000)
    (Lrow : Fin 10 → EReal) (hL : ∀ h, v73 (ix2 h q) = Lrow h) :
    k0_pay1 (F := Ideal) v5 v73 v75 v77 v84 v86 (ix2 z q)
      = last (fun h => v84 (ix2 0 h)) (v86 (ix2 0 0))
          (dense (v5 (ix2 0 0)) (fun h j => v75 (ix2 j h)) (fun j => v77 (ix2 j 0)) Lrow) := by
  refine (klast_at _ _ _ z q _ (fun h => kdense_at _ _ _ _ h q _ hL)).trans ?_
  simp only [shapeCast_self]

/-- The parameters as the body's blocks hold them: weights transposed `[out, in]`, biases and the scale as columns. -/
def blockParams (x2 x3 x4 : Vec Ideal S10x1 .f32) (x5 : Vec Ideal S10x10 .f32) (x6 : Vec Ideal S10x1 .f32)
    (x7 : Vec Ideal S10x10 .f32) (x8 : Vec Ideal S10x1 .f32) (x9 : Vec Ideal S10x10 .f32) (x10 : Vec Ideal S10x1 .f32)
    (x11 : Vec Ideal S10x10 .f32) (x12 : Vec Ideal S10x1 .f32) (x13 : Vec Ideal S10x10 .f32) (x14 : Vec Ideal S10x1 .f32)
    (x15 : Vec Ideal S10x10 .f32) (x16 : Vec Ideal S10x1 .f32) (x17 : Vec Ideal S1x1 .f32) (x18 : Vec Ideal S1x10 .f32)
    (x19 : Vec Ideal S1x1 .f32) : Params where
  α := x17 (ix2 0 0)
  w1 := fun j => x2 (ix2 j 0)
  w2 := fun j => x3 (ix2 j 0)
  b1 := fun j => x4 (ix2 j 0)
  W3 := fun h j => x5 (ix2 j h)
  B3 := fun j => x6 (ix2 j 0)
  W4 := fun h j => x7 (ix2 j h)
  B4 := fun j => x8 (ix2 j 0)
  W5 := fun h j => x9 (ix2 j h)
  B5 := fun j => x10 (ix2 j 0)
  W6 := fun h j => x11 (ix2 j h)
  B6 := fun j => x12 (ix2 j 0)
  W7 := fun h j => x13 (ix2 j h)
  B7 := fun j => x14 (ix2 j 0)
  W8 := fun h j => x15 (ix2 j h)
  B8 := fun j => x16 (ix2 j 0)
  w9 := fun h => x18 (ix2 0 h)
  b9 := x19 (ix2 0 0)

/-- THE BODY ON A LANE: what the body stores at lane `q` is the row network, with the block's parameters, of the two
    input rows' entries at that lane. -/
theorem body_at (x0 x1 : Vec Ideal S1x80000 .f32) (x2 x3 x4 : Vec Ideal S10x1 .f32) (x5 : Vec Ideal S10x10 .f32) (x6 : Vec Ideal S10x1 .f32)
    (x7 : Vec Ideal S10x10 .f32) (x8 : Vec Ideal S10x1 .f32) (x9 : Vec Ideal S10x10 .f32) (x10 : Vec Ideal S10x1 .f32)
    (x11 : Vec Ideal S10x10 .f32) (x12 : Vec Ideal S10x1 .f32) (x13 : Vec Ideal S10x10 .f32) (x14 : Vec Ideal S10x1 .f32)
    (x15 : Vec Ideal S10x10 .f32) (x16 : Vec Ideal S10x1 .f32) (x17 : Vec Ideal S1x1 .f32) (x18 : Vec Ideal S1x10 .f32)
    (x19 : Vec Ideal S1x1 .f32) (z : Fin 1) (q : Fin 80000) :
    k0_pay1 (F := Ideal) (k0_pay2 x17) (k0_pay6 (k0_pay2 x17) (k0_pay3 x0 x1 x17 x2 x3 x4 x5 x6) (k0_pay4 x7) (k0_pay5 x8) x9 x10 x11 x12 x13 x14)
        (k0_pay7 x15) (k0_pay8 x16) x18 x19 (ix2 z q)
      = net (blockParams x2 x3 x4 x5 x6 x7 x8 x9 x10 x11 x12 x13 x14 x15 x16 x17 x18 x19) (x0 (ix2 0 q)) (x1 (ix2 0 q)) := by
  refine (pay1_at _ _ _ _ _ _ z q _ (fun h => pay6_at _ _ _ _ _ _ _ _ _ _ h q _ (fun h => pay3_at _ _ _ _ _ _ _ _ h q))).trans ?_
  simp only [k0_pay2, k0_pay4, k0_pay5, k0_pay7, k0_pay8, shapeCast_self]
  rfl

end Cert.KernelRow

end
-- ==== Proof.KernelColumn.lean ====
/-
  From the body on a lane to the whole result column.

  The launch tiles the `[1, 4000000]` row of inputs into 50 blocks of 80000 lanes; block `t` holds rows
  `80000 t … 80000 t + 79999`. The parameter arrays reach the body whole, as one constant block each: the weights
  transposed, the biases and the scale as columns. Before the launch the two input columns are laid out as rows, and
  after it the result row is laid out as a column again. So row `n` of the result is the row network at the two
  inputs' entries at row `n`.
-/
import proofs.«181316_j41609643164201_1_alg».proof.Proof.Gen.KernelIdeal.Frame
import proofs.«181316_j41609643164201_1_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelColumn

open Cert.KernelIdeal Cert.KernelIdeal.Gen Cert.RowNet Cert.KernelRow

variable (m : (ℓ : Loc nD τ sig) → Buf (Elt Ideal) ℓ) (ρ : Dev nD → PrngReg)

theorem hz : (![0, 0] : Fin 2 → Nat) = fun _ => 0 := funext fun a => by fin_cases a <;> rfl

/-! ## The arrays the launch finds, as layouts of the arguments -/

/-- An input column laid out as a row. -/
theorem rowOf_at (X : FVec Ideal S4000000x1 .f32) (n : Fin 4000000) :
    shapeCast S1x4000000 X shapeCasts_S4000000x1_S1x4000000 (ix2 0 n) = X (ix2 n 0) :=
  shapeCast_apply X shapeCasts_S4000000x1_S1x4000000 (ix2 0 n) (ix2 n 0) (by
    rw [Shape.rowMajor_val_two, Shape.rowMajor_val_two]
    show n.val * 1 + 0 = 0 * 4000000 + n.val
    omega)

/-- A `[1, 10]` weight row transposed to a column. -/
theorem tr_1x10_at (X : FVec Ideal S1x10 .f32) (j : Fin 10) :
    transpose S10x1 [1, 0] X transposes_S1x10_S10x1_1_0 (ix2 j 0) = X (ix2 0 j) :=
  transpose_apply [1, 0] X transposes_S1x10_S10x1_1_0 (ix2 j 0) (ix2 0 j) (fun b => match b with
    | ⟨0, _⟩ => rfl
    | ⟨1, _⟩ => rfl)

/-- A `[10, 10]` weight matrix transposed. -/
theorem tr_10x10_at (X : FVec Ideal S10x10 .f32) (j h : Fin 10) :
    transpose S10x10 [1, 0] X transposes_S10x10_S10x10_1_0 (ix2 j h) = X (ix2 h j) :=
  transpose_apply [1, 0] X transposes_S10x10_S10x10_1_0 (ix2 j h) (ix2 h j) (fun b => match b with
    | ⟨0, _⟩ => rfl
    | ⟨1, _⟩ => rfl)

/-- The `[10, 1]` output weights transposed to a row. -/
theorem tr_10x1_at (X : FVec Ideal S10x1 .f32) (h : Fin 10) :
    transpose S1x10 [1, 0] X transposes_S10x1_S1x10_1_0 (ix2 0 h) = X (ix2 h 0) :=
  transpose_apply [1, 0] X transposes_S10x1_S1x10_1_0 (ix2 0 h) (ix2 h 0) (fun b => match b with
    | ⟨0, _⟩ => rfl
    | ⟨1, _⟩ => rfl)

/-- A bias vector as a column. -/
theorem colOf_at (X : FVec Ideal S10 .f32) (j : Fin 10) :
    broadcastInDim S10x1 ![0] bcast_S10_S10x1_0 X (ix2 j 0) = X (ix1 j) :=
  broadcastInDim_apply _ bcast_S10_S10x1_0 X (ix2 j 0) (ix1 j) (fun a => match a with
    | ⟨0, _⟩ => by show j.val = if (10 : Nat) = 1 then 0 else j.val; rw [if_neg (by decide)])

/-- A one-entry vector as a `[1, 1]` tile. -/
theorem oneOf_at (X : FVec Ideal S1 .f32) :
    broadcastInDim S1x1 ![0] bcast_S1_S1x1_0 X (ix2 0 0) = X (ix1 0) :=
  broadcastInDim_apply _ bcast_S1_S1x1_0 X (ix2 0 0) (ix1 0) (fun a => match a with
    | ⟨0, _⟩ => by show (0 : Nat) = if (1 : Nat) = 1 then 0 else 0; rw [if_pos rfl])

/-! ## Where each window's block sits -/

/-- The printed index maps over the 50 grid points: the two input rows and the result row move one block per point
    along the lanes. -/
theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_20.index t (0 : Fin 2) = 0 ∧ win0_20.index t (1 : Fin 2) = t.val) :=
  (by decide +kernel : ∀ t : Fin grid0.N, _)

/-! Every parameter window stays at block index zero on both axes at every point, and its block has the array's own
    size: the block is the whole array. One lemma per window, all of one shape. -/

theorem blk2 (c : Dev nD) (t : Fin cfg0.N) : (iblk m c 2 t : Vec Ideal S10x1 .f32) = V m c main_v2 := by
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  unfold iblk
  exact Memref.read_access_unit_zero (Elt Ideal) main_v2 (funext fun a => by
      match a with
      | ⟨0, _⟩ => exact (congrArg (· * 10) hi.1).trans (Nat.zero_mul _)
      | ⟨1, _⟩ => exact (congrArg (· * 1) hi.2).trans (Nat.zero_mul _)) _ _

theorem blk3 (c : Dev nD) (t : Fin cfg0.N) : (iblk m c 3 t : Vec Ideal S10x1 .f32) = V m c main_v3 := by
  have hi : win0_3.index t (0 : Fin 2) = 0 ∧ win0_3.index t (1 : Fin 2) = 0 :=
    (by decide +kernel : ∀ t : Fin grid0.N, win0_3.index t (0 : Fin 2) = 0 ∧ win0_3.index t (1 : Fin 2) = 0) t
  unfold iblk
  exact Memref.read_access_unit_zero (Elt Ideal) main_v3 (funext fun a => by
      match a with
      | ⟨0, _⟩ => exact (congrArg (· * 10) hi.1).trans (Nat.zero_mul _)
      | ⟨1, _⟩ => exact (congrArg (· * 1) hi.2).trans (Nat.zero_mul _)) _ _

theorem blk4 (c : Dev nD) (t : Fin cfg0.N) : (iblk m c 4 t : Vec Ideal S10x1 .f32) = V m c main_v11 := by
  have hi : win0_4.index t (0 : Fin 2) = 0 ∧ win0_4.index t (1 : Fin 2) = 0 :=
    (by decide +kernel : ∀ t : Fin grid0.N, win0_4.index t (0 : Fin 2) = 0 ∧ win0_4.index t (1 : Fin 2) = 0) t
  unfold iblk
  exact Memref.read_access_unit_zero (Elt Ideal) main_v11 (funext fun a => by
      match a with
      | ⟨0, _⟩ => exact (congrArg (· * 10) hi.1).trans (Nat.zero_mul _)
      | ⟨1, _⟩ => exact (congrArg (· * 1) hi.2).trans (Nat.zero_mul _)) _ _

theorem blk5 (c : Dev nD) (t : Fin cfg0.N) : (iblk m c 5 t : Vec Ideal S10x10 .f32) = V m c main_v4 := by
  have hi : win0_5.index t (0 : Fin 2) = 0 ∧ win0_5.index t (1 : Fin 2) = 0 :=
    (by decide +kernel : ∀ t : Fin grid0.N, win0_5.index t (0 : Fin 2) = 0 ∧ win0_5.index t (1 : Fin 2) = 0) t
  unfold iblk
  exact Memref.read_access_unit_zero (Elt Ideal) main_v4 (funext fun a => by
      match a with
      | ⟨0, _⟩ => exact (congrArg (· * 10) hi.1).trans (Nat.zero_mul _)
      | ⟨1, _⟩ => exact (congrArg (· * 10) hi.2).trans (Nat.zero_mul _)) _ _

theorem blk6 (c : Dev nD) (t : Fin cfg0.N) : (iblk m c 6 t : Vec Ideal S10x1 .f32) = V m c main_v12 := by
  have hi : win0_6.index t (0 : Fin 2) = 0 ∧ win0_6.index t (1 : Fin 2) = 0 :=
    (by decide +kernel : ∀ t : Fin grid0.N, win0_6.index t (0 : Fin 2) = 0 ∧ win0_6.index t (1 : Fin 2) = 0) t
  unfold iblk
  exact Memref.read_access_unit_zero (Elt Ideal) main_v12 (funext fun a => by
      match a with
      | ⟨0, _⟩ => exact (congrArg (· * 10) hi.1).trans (Nat.zero_mul _)
      | ⟨1, _⟩ => exact (congrArg (· * 1) hi.2).trans (Nat.zero_mul _)) _ _

theorem blk7 (c : Dev nD) (t : Fin cfg0.N) : (iblk m c 7 t : Vec Ideal S10x10 .f32) = V m c main_v5 := by
  have hi : win0_7.index t (0 : Fin 2) = 0 ∧ win0_7.index t (1 : Fin 2) = 0 :=
    (by decide +kernel : ∀ t : Fin grid0.N, win0_7.index t (0 : Fin 2) = 0 ∧ win0_7.index t (1 : Fin 2) = 0) t
  unfold iblk
  exact Memref.read_access_unit_zero (Elt Ideal) main_v5 (funext fun a => by
      match a with
      | ⟨0, _⟩ => exact (congrArg (· * 10) hi.1).trans (Nat.zero_mul _)
      | ⟨1, _⟩ => exact (congrArg (· * 10) hi.2).trans (Nat.zero_mul _)) _ _

theorem blk8 (c : Dev nD) (t : Fin cfg0.N) : (iblk m c 8 t : Vec Ideal S10x1 .f32) = V m c main_v13 := by
  have hi : win0_8.index t (0 : Fin 2) = 0 ∧ win0_8.index t (1 : Fin 2) = 0 :=
    (by decide +kernel : ∀ t : Fin grid0.N, win0_8.index t (0 : Fin 2) = 0 ∧ win0_8.index t (1 : Fin 2) = 0) t
  unfold iblk
  exact Memref.read_access_unit_zero (Elt Ideal) main_v13 (funext fun a => by
      match a with
      | ⟨0, _⟩ => exact (congrArg (· * 10) hi.1).trans (Nat.zero_mul _)
      | ⟨1, _⟩ => exact (congrArg (· * 1) hi.2).trans (Nat.zero_mul _)) _ _

theorem blk9 (c : Dev nD) (t : Fin cfg0.N) : (iblk m c 9 t : Vec Ideal S10x10 .f32) = V m c main_v6 := by
  have hi : win0_9.index t (0 : Fin 2) = 0 ∧ win0_9.index t (1 : Fin 2) = 0 :=
    (by decide +kernel : ∀ t : Fin grid0.N, win0_9.index t (0 : Fin 2) = 0 ∧ win0_9.index t (1 : Fin 2) = 0) t
  unfold iblk
  exact Memref.read_access_unit_zero (Elt Ideal) main_v6 (funext fun a => by
      match a with
      | ⟨0, _⟩ => exact (congrArg (· * 10) hi.1).trans (Nat.zero_mul _)
      | ⟨1, _⟩ => exact (congrArg (· * 10) hi.2).trans (Nat.zero_mul _)) _ _

theorem blk10 (c : Dev nD) (t : Fin cfg0.N) : (iblk m c 10 t : Vec Ideal S10x1 .f32) = V m c main_v14 := by
  have hi : win0_10.index t (0 : Fin 2) = 0 ∧ win0_10.index t (1 : Fin 2) = 0 :=
    (by decide +kernel : ∀ t : Fin grid0.N, win0_10.index t (0 : Fin 2) = 0 ∧ win0_10.index t (1 : Fin 2) = 0) t
  unfold iblk
  exact Memref.read_access_unit_zero (Elt Ideal) main_v14 (funext fun a => by
      match a with
      | ⟨0, _⟩ => exact (congrArg (· * 10) hi.1).trans (Nat.zero_mul _)
      | ⟨1, _⟩ => exact (congrArg (· * 1) hi.2).trans (Nat.zero_mul _)) _ _

theorem blk11 (c : Dev nD) (t : Fin cfg0.N) : (iblk m c 11 t : Vec Ideal S10x10 .f32) = V m c main_v7 := by
  have hi : win0_11.index t (0 : Fin 2) = 0 ∧ win0_11.index t (1 : Fin 2) = 0 :=
    (by decide +kernel : ∀ t : Fin grid0.N, win0_11.index t (0 : Fin 2) = 0 ∧ win0_11.index t (1 : Fin 2) = 0) t
  unfold iblk
  exact Memref.read_access_unit_zero (Elt Ideal) main_v7 (funext fun a => by
      match a with
      | ⟨0, _⟩ => exact (congrArg (· * 10) hi.1).trans (Nat.zero_mul _)
      | ⟨1, _⟩ => exact (congrArg (· * 10) hi.2).trans (Nat.zero_mul _)) _ _

theorem blk12 (c : Dev nD) (t : Fin cfg0.N) : (iblk m c 12 t : Vec Ideal S10x1 .f32) = V m c main_v15 := by
  have hi : win0_12.index t (0 : Fin 2) = 0 ∧ win0_12.index t (1 : Fin 2) = 0 :=
    (by decide +kernel : ∀ t : Fin grid0.N, win0_12.index t (0 : Fin 2) = 0 ∧ win0_12.index t (1 : Fin 2) = 0) t
  unfold iblk
  exact Memref.read_access_unit_zero (Elt Ideal) main_v15 (funext fun a => by
      match a with
      | ⟨0, _⟩ => exact (congrArg (· * 10) hi.1).trans (Nat.zero_mul _)
      | ⟨1, _⟩ => exact (congrArg (· * 1) hi.2).trans (Nat.zero_mul _)) _ _

theorem blk13 (c : Dev nD) (t : Fin cfg0.N) : (iblk m c 13 t : Vec Ideal S10x10 .f32) = V m c main_v8 := by
  have hi : win0_13.index t (0 : Fin 2) = 0 ∧ win0_13.index t (1 : Fin 2) = 0 :=
    (by decide +kernel : ∀ t : Fin grid0.N, win0_13.index t (0 : Fin 2) = 0 ∧ win0_13.index t (1 : Fin 2) = 0) t
  unfold iblk
  exact Memref.read_access_unit_zero (Elt Ideal) main_v8 (funext fun a => by
      match a with
      | ⟨0, _⟩ => exact (congrArg (· * 10) hi.1).trans (Nat.zero_mul _)
      | ⟨1, _⟩ => exact (congrArg (· * 10) hi.2).trans (Nat.zero_mul _)) _ _

theorem blk14 (c : Dev nD) (t : Fin cfg0.N) : (iblk m c 14 t : Vec Ideal S10x1 .f32) = V m c main_v16 := by
  have hi : win0_14.index t (0 : Fin 2) = 0 ∧ win0_14.index t (1 : Fin 2) = 0 :=
    (by decide +kernel : ∀ t : Fin grid0.N, win0_14.index t (0 : Fin 2) = 0 ∧ win0_14.index t (1 : Fin 2) = 0) t
  unfold iblk
  exact Memref.read_access_unit_zero (Elt Ideal) main_v16 (funext fun a => by
      match a with
      | ⟨0, _⟩ => exact (congrArg (· * 10) hi.1).trans (Nat.zero_mul _)
      | ⟨1, _⟩ => exact (congrArg (· * 1) hi.2).trans (Nat.zero_mul _)) _ _

theorem blk15 (c : Dev nD) (t : Fin cfg0.N) : (iblk m c 15 t : Vec Ideal S10x10 .f32) = V m c main_v9 := by
  have hi : win0_15.index t (0 : Fin 2) = 0 ∧ win0_15.index t (1 : Fin 2) = 0 :=
    (by decide +kernel : ∀ t : Fin grid0.N, win0_15.index t (0 : Fin 2) = 0 ∧ win0_15.index t (1 : Fin 2) = 0) t
  unfold iblk
  exact Memref.read_access_unit_zero (Elt Ideal) main_v9 (funext fun a => by
      match a with
      | ⟨0, _⟩ => exact (congrArg (· * 10) hi.1).trans (Nat.zero_mul _)
      | ⟨1, _⟩ => exact (congrArg (· * 10) hi.2).trans (Nat.zero_mul _)) _ _

theorem blk16 (c : Dev nD) (t : Fin cfg0.N) : (iblk m c 16 t : Vec Ideal S10x1 .f32) = V m c main_v17 := by
  have hi : win0_16.index t (0 : Fin 2) = 0 ∧ win0_16.index t (1 : Fin 2) = 0 :=
    (by decide +kernel : ∀ t : Fin grid0.N, win0_16.index t (0 : Fin 2) = 0 ∧ win0_16.index t (1 : Fin 2) = 0) t
  unfold iblk
  exact Memref.read_access_unit_zero (Elt Ideal) main_v17 (funext fun a => by
      match a with
      | ⟨0, _⟩ => exact (congrArg (· * 10) hi.1).trans (Nat.zero_mul _)
      | ⟨1, _⟩ => exact (congrArg (· * 1) hi.2).trans (Nat.zero_mul _)) _ _

theorem blk17 (c : Dev nD) (t : Fin cfg0.N) : (iblk m c 17 t : Vec Ideal S1x1 .f32) = V m c main_v19 := by
  have hi : win0_17.index t (0 : Fin 2) = 0 ∧ win0_17.index t (1 : Fin 2) = 0 :=
    (by decide +kernel : ∀ t : Fin grid0.N, win0_17.index t (0 : Fin 2) = 0 ∧ win0_17.index t (1 : Fin 2) = 0) t
  unfold iblk
  exact Memref.read_access_unit_zero (Elt Ideal) main_v19 (funext fun a => by
      match a with
      | ⟨0, _⟩ => exact (congrArg (· * 1) hi.1).trans (Nat.zero_mul _)
      | ⟨1, _⟩ => exact (congrArg (· * 1) hi.2).trans (Nat.zero_mul _)) _ _

theorem blk18 (c : Dev nD) (t : Fin cfg0.N) : (iblk m c 18 t : Vec Ideal S1x10 .f32) = V m c main_v10 := by
  have hi : win0_18.index t (0 : Fin 2) = 0 ∧ win0_18.index t (1 : Fin 2) = 0 :=
    (by decide +kernel : ∀ t : Fin grid0.N, win0_18.index t (0 : Fin 2) = 0 ∧ win0_18.index t (1 : Fin 2) = 0) t
  unfold iblk
  exact Memref.read_access_unit_zero (Elt Ideal) main_v10 (funext fun a => by
      match a with
      | ⟨0, _⟩ => exact (congrArg (· * 1) hi.1).trans (Nat.zero_mul _)
      | ⟨1, _⟩ => exact (congrArg (· * 10) hi.2).trans (Nat.zero_mul _)) _ _

theorem blk19 (c : Dev nD) (t : Fin cfg0.N) : (iblk m c 19 t : Vec Ideal S1x1 .f32) = V m c main_v18 := by
  have hi : win0_19.index t (0 : Fin 2) = 0 ∧ win0_19.index t (1 : Fin 2) = 0 :=
    (by decide +kernel : ∀ t : Fin grid0.N, win0_19.index t (0 : Fin 2) = 0 ∧ win0_19.index t (1 : Fin 2) = 0) t
  unfold iblk
  exact Memref.read_access_unit_zero (Elt Ideal) main_v18 (funext fun a => by
      match a with
      | ⟨0, _⟩ => exact (congrArg (· * 1) hi.1).trans (Nat.zero_mul _)
      | ⟨1, _⟩ => exact (congrArg (· * 1) hi.2).trans (Nat.zero_mul _)) _ _

/-! ## The arrays the launch finds: each is one layout operation of an argument

    The host lines before the launch write twenty arrays, each from one argument: the two input columns as rows, the
    weights transposed, the biases and the scale as columns. One lemma per array, all of one shape. -/

theorem V_v0 (c : Dev nD) : (V m c main_v0 : S1x4000000.Idx → EReal) = shapeCast S1x4000000 (m ((c : Thread nD τ).loc main_arg0)) shapeCasts_S4000000x1_S1x4000000 := by
  show StableHlo.after hostOps0 (fun b => m (c, b)) (Proc.devRef .tc main_v0) = _
  after_results <;> rfl

theorem V_v1 (c : Dev nD) : (V m c main_v1 : S1x4000000.Idx → EReal) = shapeCast S1x4000000 (m ((c : Thread nD τ).loc main_arg1)) shapeCasts_S4000000x1_S1x4000000 := by
  show StableHlo.after hostOps0 (fun b => m (c, b)) (Proc.devRef .tc main_v1) = _
  after_results <;> rfl

theorem V_v2 (c : Dev nD) : (V m c main_v2 : S10x1.Idx → EReal) = transpose S10x1 [1, 0] (m ((c : Thread nD τ).loc main_arg2)) transposes_S1x10_S10x1_1_0 := by
  show StableHlo.after hostOps0 (fun b => m (c, b)) (Proc.devRef .tc main_v2) = _
  after_results <;> rfl

theorem V_v3 (c : Dev nD) : (V m c main_v3 : S10x1.Idx → EReal) = transpose S10x1 [1, 0] (m ((c : Thread nD τ).loc main_arg3)) transposes_S1x10_S10x1_1_0 := by
  show StableHlo.after hostOps0 (fun b => m (c, b)) (Proc.devRef .tc main_v3) = _
  after_results <;> rfl

theorem V_v4 (c : Dev nD) : (V m c main_v4 : S10x10.Idx → EReal) = transpose S10x10 [1, 0] (m ((c : Thread nD τ).loc main_arg5)) transposes_S10x10_S10x10_1_0 := by
  show StableHlo.after hostOps0 (fun b => m (c, b)) (Proc.devRef .tc main_v4) = _
  after_results <;> rfl

theorem V_v5 (c : Dev nD) : (V m c main_v5 : S10x10.Idx → EReal) = transpose S10x10 [1, 0] (m ((c : Thread nD τ).loc main_arg7)) transposes_S10x10_S10x10_1_0 := by
  show StableHlo.after hostOps0 (fun b => m (c, b)) (Proc.devRef .tc main_v5) = _
  after_results <;> rfl

theorem V_v6 (c : Dev nD) : (V m c main_v6 : S10x10.Idx → EReal) = transpose S10x10 [1, 0] (m ((c : Thread nD τ).loc main_arg9)) transposes_S10x10_S10x10_1_0 := by
  show StableHlo.after hostOps0 (fun b => m (c, b)) (Proc.devRef .tc main_v6) = _
  after_results <;> rfl

theorem V_v7 (c : Dev nD) : (V m c main_v7 : S10x10.Idx → EReal) = transpose S10x10 [1, 0] (m ((c : Thread nD τ).loc main_arg11)) transposes_S10x10_S10x10_1_0 := by
  show StableHlo.after hostOps0 (fun b => m (c, b)) (Proc.devRef .tc main_v7) = _
  after_results <;> rfl

theorem V_v8 (c : Dev nD) : (V m c main_v8 : S10x10.Idx → EReal) = transpose S10x10 [1, 0] (m ((c : Thread nD τ).loc main_arg13)) transposes_S10x10_S10x10_1_0 := by
  show StableHlo.after hostOps0 (fun b => m (c, b)) (Proc.devRef .tc main_v8) = _
  after_results <;> rfl

theorem V_v9 (c : Dev nD) : (V m c main_v9 : S10x10.Idx → EReal) = transpose S10x10 [1, 0] (m ((c : Thread nD τ).loc main_arg15)) transposes_S10x10_S10x10_1_0 := by
  show StableHlo.after hostOps0 (fun b => m (c, b)) (Proc.devRef .tc main_v9) = _
  after_results <;> rfl

theorem V_v10 (c : Dev nD) : (V m c main_v10 : S1x10.Idx → EReal) = transpose S1x10 [1, 0] (m ((c : Thread nD τ).loc main_arg18)) transposes_S10x1_S1x10_1_0 := by
  show StableHlo.after hostOps0 (fun b => m (c, b)) (Proc.devRef .tc main_v10) = _
  after_results <;> rfl

theorem V_v11 (c : Dev nD) : (V m c main_v11 : S10x1.Idx → EReal) = broadcastInDim S10x1 ![0] bcast_S10_S10x1_0 (m ((c : Thread nD τ).loc main_arg4)) := by
  show StableHlo.after hostOps0 (fun b => m (c, b)) (Proc.devRef .tc main_v11) = _
  after_results <;> rfl

theorem V_v12 (c : Dev nD) : (V m c main_v12 : S10x1.Idx → EReal) = broadcastInDim S10x1 ![0] bcast_S10_S10x1_0 (m ((c : Thread nD τ).loc main_arg6)) := by
  show StableHlo.after hostOps0 (fun b => m (c, b)) (Proc.devRef .tc main_v12) = _
  after_results <;> rfl

theorem V_v13 (c : Dev nD) : (V m c main_v13 : S10x1.Idx → EReal) = broadcastInDim S10x1 ![0] bcast_S10_S10x1_0 (m ((c : Thread nD τ).loc main_arg8)) := by
  show StableHlo.after hostOps0 (fun b => m (c, b)) (Proc.devRef .tc main_v13) = _
  after_results <;> rfl

theorem V_v14 (c : Dev nD) : (V m c main_v14 : S10x1.Idx → EReal) = broadcastInDim S10x1 ![0] bcast_S10_S10x1_0 (m ((c : Thread nD τ).loc main_arg10)) := by
  show StableHlo.after hostOps0 (fun b => m (c, b)) (Proc.devRef .tc main_v14) = _
  after_results <;> rfl

theorem V_v15 (c : Dev nD) : (V m c main_v15 : S10x1.Idx → EReal) = broadcastInDim S10x1 ![0] bcast_S10_S10x1_0 (m ((c : Thread nD τ).loc main_arg12)) := by
  show StableHlo.after hostOps0 (fun b => m (c, b)) (Proc.devRef .tc main_v15) = _
  after_results <;> rfl

theorem V_v16 (c : Dev nD) : (V m c main_v16 : S10x1.Idx → EReal) = broadcastInDim S10x1 ![0] bcast_S10_S10x1_0 (m ((c : Thread nD τ).loc main_arg14)) := by
  show StableHlo.after hostOps0 (fun b => m (c, b)) (Proc.devRef .tc main_v16) = _
  after_results <;> rfl

theorem V_v17 (c : Dev nD) : (V m c main_v17 : S10x1.Idx → EReal) = broadcastInDim S10x1 ![0] bcast_S10_S10x1_0 (m ((c : Thread nD τ).loc main_arg16)) := by
  show StableHlo.after hostOps0 (fun b => m (c, b)) (Proc.devRef .tc main_v17) = _
  after_results <;> rfl

theorem V_v18 (c : Dev nD) : (V m c main_v18 : S1x1.Idx → EReal) = broadcastInDim S1x1 ![0] bcast_S1_S1x1_0 (m ((c : Thread nD τ).loc main_arg19)) := by
  show StableHlo.after hostOps0 (fun b => m (c, b)) (Proc.devRef .tc main_v18) = _
  after_results <;> rfl

theorem V_v19 (c : Dev nD) : (V m c main_v19 : S1x1.Idx → EReal) = broadcastInDim S1x1 ![0] bcast_S1_S1x1_0 (m ((c : Thread nD τ).loc main_arg17)) := by
  show StableHlo.after hostOps0 (fun b => m (c, b)) (Proc.devRef .tc main_v19) = _
  after_results <;> rfl

/-! ## The block's parameters are the arguments'

    Each entry of a parameter block is an entry of its argument: the block is the whole array the launch finds, and
    that array is the argument transposed, or spread as a column. One lemma per window. -/

theorem p2 (c : Dev nD) (t : Fin cfg0.N) (j : Fin 10) :
    (iblk m c 2 t : Vec Ideal S10x1 .f32) (ix2 j 0) = m ((c : Thread nD τ).loc main_arg2) (ix2 0 j) :=
  (congrFun (blk2 m c t) (ix2 j 0)).trans ((congrFun (V_v2 m c) (ix2 j 0)).trans (tr_1x10_at _ j))

theorem p3 (c : Dev nD) (t : Fin cfg0.N) (j : Fin 10) :
    (iblk m c 3 t : Vec Ideal S10x1 .f32) (ix2 j 0) = m ((c : Thread nD τ).loc main_arg3) (ix2 0 j) :=
  (congrFun (blk3 m c t) (ix2 j 0)).trans ((congrFun (V_v3 m c) (ix2 j 0)).trans (tr_1x10_at _ j))

theorem p4 (c : Dev nD) (t : Fin cfg0.N) (j : Fin 10) :
    (iblk m c 4 t : Vec Ideal S10x1 .f32) (ix2 j 0) = m ((c : Thread nD τ).loc main_arg4) (ix1 j) :=
  (congrFun (blk4 m c t) (ix2 j 0)).trans ((congrFun (V_v11 m c) (ix2 j 0)).trans (colOf_at _ j))

theorem p5 (c : Dev nD) (t : Fin cfg0.N) (j h : Fin 10) :
    (iblk m c 5 t : Vec Ideal S10x10 .f32) (ix2 j h) = m ((c : Thread nD τ).loc main_arg5) (ix2 h j) :=
  (congrFun (blk5 m c t) (ix2 j h)).trans ((congrFun (V_v4 m c) (ix2 j h)).trans (tr_10x10_at _ j h))

theorem p6 (c : Dev nD) (t : Fin cfg0.N) (j : Fin 10) :
    (iblk m c 6 t : Vec Ideal S10x1 .f32) (ix2 j 0) = m ((c : Thread nD τ).loc main_arg6) (ix1 j) :=
  (congrFun (blk6 m c t) (ix2 j 0)).trans ((congrFun (V_v12 m c) (ix2 j 0)).trans (colOf_at _ j))

theorem p7 (c : Dev nD) (t : Fin cfg0.N) (j h : Fin 10) :
    (iblk m c 7 t : Vec Ideal S10x10 .f32) (ix2 j h) = m ((c : Thread nD τ).loc main_arg7) (ix2 h j) :=
  (congrFun (blk7 m c t) (ix2 j h)).trans ((congrFun (V_v5 m c) (ix2 j h)).trans (tr_10x10_at _ j h))

theorem p8 (c : Dev nD) (t : Fin cfg0.N) (j : Fin 10) :
    (iblk m c 8 t : Vec Ideal S10x1 .f32) (ix2 j 0) = m ((c : Thread nD τ).loc main_arg8) (ix1 j) :=
  (congrFun (blk8 m c t) (ix2 j 0)).trans ((congrFun (V_v13 m c) (ix2 j 0)).trans (colOf_at _ j))

theorem p9 (c : Dev nD) (t : Fin cfg0.N) (j h : Fin 10) :
    (iblk m c 9 t : Vec Ideal S10x10 .f32) (ix2 j h) = m ((c : Thread nD τ).loc main_arg9) (ix2 h j) :=
  (congrFun (blk9 m c t) (ix2 j h)).trans ((congrFun (V_v6 m c) (ix2 j h)).trans (tr_10x10_at _ j h))

theorem p10 (c : Dev nD) (t : Fin cfg0.N) (j : Fin 10) :
    (iblk m c 10 t : Vec Ideal S10x1 .f32) (ix2 j 0) = m ((c : Thread nD τ).loc main_arg10) (ix1 j) :=
  (congrFun (blk10 m c t) (ix2 j 0)).trans ((congrFun (V_v14 m c) (ix2 j 0)).trans (colOf_at _ j))

theorem p11 (c : Dev nD) (t : Fin cfg0.N) (j h : Fin 10) :
    (iblk m c 11 t : Vec Ideal S10x10 .f32) (ix2 j h) = m ((c : Thread nD τ).loc main_arg11) (ix2 h j) :=
  (congrFun (blk11 m c t) (ix2 j h)).trans ((congrFun (V_v7 m c) (ix2 j h)).trans (tr_10x10_at _ j h))

theorem p12 (c : Dev nD) (t : Fin cfg0.N) (j : Fin 10) :
    (iblk m c 12 t : Vec Ideal S10x1 .f32) (ix2 j 0) = m ((c : Thread nD τ).loc main_arg12) (ix1 j) :=
  (congrFun (blk12 m c t) (ix2 j 0)).trans ((congrFun (V_v15 m c) (ix2 j 0)).trans (colOf_at _ j))

theorem p13 (c : Dev nD) (t : Fin cfg0.N) (j h : Fin 10) :
    (iblk m c 13 t : Vec Ideal S10x10 .f32) (ix2 j h) = m ((c : Thread nD τ).loc main_arg13) (ix2 h j) :=
  (congrFun (blk13 m c t) (ix2 j h)).trans ((congrFun (V_v8 m c) (ix2 j h)).trans (tr_10x10_at _ j h))

theorem p14 (c : Dev nD) (t : Fin cfg0.N) (j : Fin 10) :
    (iblk m c 14 t : Vec Ideal S10x1 .f32) (ix2 j 0) = m ((c : Thread nD τ).loc main_arg14) (ix1 j) :=
  (congrFun (blk14 m c t) (ix2 j 0)).trans ((congrFun (V_v16 m c) (ix2 j 0)).trans (colOf_at _ j))

theorem p15 (c : Dev nD) (t : Fin cfg0.N) (j h : Fin 10) :
    (iblk m c 15 t : Vec Ideal S10x10 .f32) (ix2 j h) = m ((c : Thread nD τ).loc main_arg15) (ix2 h j) :=
  (congrFun (blk15 m c t) (ix2 j h)).trans ((congrFun (V_v9 m c) (ix2 j h)).trans (tr_10x10_at _ j h))

theorem p16 (c : Dev nD) (t : Fin cfg0.N) (j : Fin 10) :
    (iblk m c 16 t : Vec Ideal S10x1 .f32) (ix2 j 0) = m ((c : Thread nD τ).loc main_arg16) (ix1 j) :=
  (congrFun (blk16 m c t) (ix2 j 0)).trans ((congrFun (V_v17 m c) (ix2 j 0)).trans (colOf_at _ j))

theorem p17 (c : Dev nD) (t : Fin cfg0.N) :
    (iblk m c 17 t : Vec Ideal S1x1 .f32) (ix2 0 0) = m ((c : Thread nD τ).loc main_arg17) (ix1 0) :=
  (congrFun (blk17 m c t) (ix2 0 0)).trans ((congrFun (V_v19 m c) (ix2 0 0)).trans (oneOf_at _))

theorem p18 (c : Dev nD) (t : Fin cfg0.N) (h : Fin 10) :
    (iblk m c 18 t : Vec Ideal S1x10 .f32) (ix2 0 h) = m ((c : Thread nD τ).loc main_arg18) (ix2 h 0) :=
  (congrFun (blk18 m c t) (ix2 0 h)).trans ((congrFun (V_v10 m c) (ix2 0 h)).trans (tr_10x1_at _ h))

theorem p19 (c : Dev nD) (t : Fin cfg0.N) :
    (iblk m c 19 t : Vec Ideal S1x1 .f32) (ix2 0 0) = m ((c : Thread nD τ).loc main_arg19) (ix1 0) :=
  (congrFun (blk19 m c t) (ix2 0 0)).trans ((congrFun (V_v18 m c) (ix2 0 0)).trans (oneOf_at _))

/-- The parameters the body finds in its blocks at any point are the parameters read off the argument arrays. -/
theorem params_eq (c : Dev nD) (t : Fin cfg0.N) :
    blockParams (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (iblk m c 15 t)
        (iblk m c 16 t) (iblk m c 17 t) (iblk m c 18 t) (iblk m c 19 t)
      = paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  unfold blockParams paramsOf
  simp only [p2 m c t, p3 m c t, p4 m c t, p5 m c t, p6 m c t, p7 m c t, p8 m c t, p9 m c t, p10 m c t, p11 m c t, p12 m c t,
    p13 m c t, p14 m c t, p15 m c t, p16 m c t, p17 m c t, p18 m c t, p19 m c t]

/-! ## The two input rows' blocks -/

/-- Lane `q` of the first input's block at point `t` is the first input column at row `80000 t + q`. -/
theorem in0_at (c : Dev nD) (t : Fin cfg0.N) (q : Fin 80000) (n : Fin 4000000) (hn : n.val = t.val * 80000 + q.val) :
    (iblk m c 0 t : Vec Ideal S1x80000 .f32) (ix2 0 q) = m ((c : Thread nD τ).loc main_arg0) (ix2 n 0) := by
  obtain ⟨⟨e0, e1⟩, -, -⟩ := idx_facts t
  unfold iblk
  rw [View.read_apply]
  show V m c main_v0 _ = _
  refine (congrFun (V_v0 m c) _).trans ?_
  refine Eq.trans ?_ (rowOf_at (m ((c : Thread nD τ).loc main_arg0)) n)
  congr 1
  funext a
  apply Fin.ext
  match a with
  | ⟨0, _⟩ => show win0_0.index t (0 : Fin 2) * 1 + 1 * 0 = 0; rw [e0]
  | ⟨1, _⟩ => show win0_0.index t (1 : Fin 2) * 80000 + 1 * q.val = n.val; rw [e1, hn]; omega

/-- The same for the second input. -/
theorem in1_at (c : Dev nD) (t : Fin cfg0.N) (q : Fin 80000) (n : Fin 4000000) (hn : n.val = t.val * 80000 + q.val) :
    (iblk m c 1 t : Vec Ideal S1x80000 .f32) (ix2 0 q) = m ((c : Thread nD τ).loc main_arg1) (ix2 n 0) := by
  obtain ⟨-, ⟨e0, e1⟩, -⟩ := idx_facts t
  unfold iblk
  rw [View.read_apply]
  show V m c main_v1 _ = _
  refine (congrFun (V_v1 m c) _).trans ?_
  refine Eq.trans ?_ (rowOf_at (m ((c : Thread nD τ).loc main_arg1)) n)
  congr 1
  funext a
  apply Fin.ext
  match a with
  | ⟨0, _⟩ => show win0_1.index t (0 : Fin 2) * 1 + 1 * 0 = 0; rw [e0]
  | ⟨1, _⟩ => show win0_1.index t (1 : Fin 2) * 80000 + 1 * q.val = n.val; rw [e1, hn]; omega

/-! ## The result row, block by block -/

/-- The result row as one function of the arguments: lane `n` holds the row network at the two inputs' row `n`. -/
def resultRow (c : Dev nD) : S1x4000000.Idx → EReal := fun i =>
  net (paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (m ((c : Thread nD τ).loc main_arg0) (ix2 (i 1) 0)) (m ((c : Thread nD τ).loc main_arg1) (ix2 (i 1) 0))

/-- WHAT POINT `t` WRITES BACK is block `t` of the result row. -/
theorem flushed_eq (c : Dev nD) (t : Fin cfg0.N) :
    (dats m 0 c).flushed 20 t = ((cfg0.win 20).blk t).view.read (Elt Ideal) (resultRow m c) := by
  obtain ⟨-, -, ⟨e0, e1⟩⟩ := idx_facts t
  show (cfg0.win 20).cut (grid0.coords t) ((dats m 0 c).after 20 t) = _
  rw [after0_20]
  unfold out0_20
  rw [View.canon_unit_zero hz]
  simp only [View.ld_unit_zero (S := S1x80000) hz, View.ld_unit_zero (S := S1x1) hz, View.ld_unit_zero (S := S10x1) hz,
    View.ld_unit_zero (S := S10x10) hz, View.ld_unit_zero (S := S1x10) hz]
  funext y
  obtain ⟨z, q, rfl⟩ : ∃ (z : Fin 1) (q : Fin 80000), y = ix2 z q := ⟨y 0, y 1, eq_ix2 y⟩
  refine (body_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) (iblk m c 17 t) (iblk m c 18 t) (iblk m c 19 t) z q).trans ?_
  rw [params_eq m c t, View.read_apply]
  show _ = resultRow m c (((cfg0.win 20).blk t).view.emb (ix2 z q))
  unfold resultRow
  have hn : ((((cfg0.win 20).blk t).view.emb (ix2 z q)) 1).val = t.val * 80000 + q.val := by
    show win0_20.index t (1 : Fin 2) * 80000 + 1 * q.val = _
    rw [e1]; omega
  rw [in0_at m c t q _ hn, in1_at m c t q _ hn]

/-- An index of the result row is in point `t`'s block iff each coordinate is in the block's range on its axis. -/
theorem mem_blk (t : Fin cfg0.N) (i : S1x4000000.Idx) :
    i ∈ ((cfg0.win 20).blk t).view.set ↔ ∀ a : Fin 2, win0_20.index t a * S1x80000.size a ≤ (i a).val
      ∧ (i a).val < win0_20.index t a * S1x80000.size a + S1x80000.size a := by
  show i ∈ ((View.whole main_v20).slice (win0_20.rect t)).set ↔ _
  rw [View.set_slice_whole, Rect.mem_set_unit]
  exact Iff.rfl

/-- Every lane lies in the block of the point `⌊lane / 80000⌋`. -/
theorem cover (i : S1x4000000.Idx) :
    ∃ t : Fin cfg0.N, (cfg0.win 20).flush t = true ∧ i ∈ ((cfg0.win 20).blk t).view.set := by
  have hi0 : (i 0).val < 1 := (i 0).isLt
  have hi1 : (i 1).val < 4000000 := (i 1).isLt
  have hN : cfg0.N = 50 := N_0
  have ht : (i 1).val / 80000 < cfg0.N := by omega
  obtain ⟨-, -, ⟨e0, e1⟩⟩ := idx_facts ⟨(i 1).val / 80000, ht⟩
  refine ⟨⟨(i 1).val / 80000, ht⟩, flush0_20 _, ?_⟩
  rw [mem_blk]
  intro a
  match a with
  | ⟨0, _⟩ =>
    show win0_20.index ⟨(i 1).val / 80000, ht⟩ (0 : Fin 2) * 1 ≤ (i 0).val
      ∧ (i 0).val < win0_20.index ⟨(i 1).val / 80000, ht⟩ (0 : Fin 2) * 1 + 1
    rw [e0]; omega
  | ⟨1, _⟩ =>
    show win0_20.index ⟨(i 1).val / 80000, ht⟩ (1 : Fin 2) * 80000 ≤ (i 1).val
      ∧ (i 1).val < win0_20.index ⟨(i 1).val / 80000, ht⟩ (1 : Fin 2) * 80000 + 80000
    rw [e1]
    show (i 1).val / 80000 * 80000 ≤ (i 1).val ∧ (i 1).val < (i 1).val / 80000 * 80000 + 80000
    omega

/-- THE RESULT ROW after the launch. -/
theorem final_row (c : Dev nD) : (dats m 0 c).arrAt 20 cfg0.N = resultRow m c :=
  (dats m 0 c).arrAt_eq_of_cover 20 (resultRow m c) (fun t _ => flushed_eq m c t) cover

/-! ## The result column, and the run -/

/-- A row laid out as a column. -/
theorem colOfRow_at (X : S1x4000000.Idx → EReal) (n : Fin 4000000) :
    shapeCast S4000000x1 X shapeCasts_S1x4000000_S4000000x1 (ix2 n 0) = X (ix2 0 n) :=
  shapeCast_apply X shapeCasts_S1x4000000_S4000000x1 (ix2 n 0) (ix2 0 n) (by
    rw [Shape.rowMajor_val_two, Shape.rowMajor_val_two]
    show 0 * 4000000 + n.val = n.val * 1 + 0
    omega)

/-- The host line after the launch lays the result row out as the result column. -/
theorem result_col (c : Dev nD) :
    Pipeline.afterTail₀ cfgs (dats m) 0 (V0 m) [hostOps1] c main_v21
      = column (paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (m ((c : Thread nD τ).loc main_arg0)) (m ((c : Thread nD τ).loc main_arg1)) := by
  have e : Pipeline.withArrays (cfgs 0).spec c (V0 m c) (fun w => (dats m 0 c).arrAt w (cfgs 0).N) (Proc.devRef .tc main_v20)
      = resultRow m c :=
    (Pipeline.withArrays_arr spec0 launch0.win.arr_inj c _ _ 20).trans (final_row m c)
  unfold Pipeline.afterTail₀
  show StableHlo.after hostOps1 _ (Proc.devRef .tc main_v21) = _
  after_results
  funext i
  show shapeCast S4000000x1 (Pipeline.withArrays (cfgs 0).spec c (V0 m c) (fun w => (dats m 0 c).arrAt w (cfgs 0).N)
    (Proc.devRef .tc main_v20)) shapeCasts_S1x4000000_S4000000x1 i = _
  rw [e]
  obtain ⟨n, z, rfl⟩ : ∃ (n : Fin 4000000) (z : Fin 1), i = ix2 n z := ⟨i 0, i 1, eq_ix2 i⟩
  obtain rfl : z = 0 := Subsingleton.elim _ _
  rw [colOfRow_at]
  rfl

/-- THE KERNEL'S RUN, read: the result column is the row network of the two input columns, row by row, and every
    argument ends as it began. -/
theorem run : θ_run defs (onTc (τ := τ) (main (F := Ideal))) ⟨m, fun _ => 0, ρ⟩ (fun r => ∀ c : Dev nD,
      r.2.mem ((c.tc : Thread nD τ).loc main_v21)
        = column (paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨((h c).2 main_v21 (Pipeline.mem_restRefs_of main_v21 (by decide) (by decide))).trans (result_col m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c))⟩) (run_main m ρ)

end Cert.KernelColumn

end
-- ==== Proof.RefRows.lean ====
/-
  The reference program, read one row at a time, is the row network.

  The reference computes, on the whole batch at once, `L₁ = tanh (α · ((X₁ · W₁ + X₂ · W₂) + B₁))`, six times
  `L ↦ tanh (α · ((L · W) + B))`, and the result `L · W₉ + B₉`. Every matrix product contracts the columns of
  the batch-side operand against the rows of the weights, so entry `[n, j]` of a product is `∑ h, L[n, h] · W[h, j]`:
  it reads the left operand in row `n` only. The biases and the scale are broadcast along the rows, so entry
  `[n, j]` of each of them is the `j`-th bias, respectively the scale. Hence row `n` of every layer is a function
  of row `n` of the layer before, and this function is the corresponding layer of `Cert.RowNet` — with the factors
  of each product and the terms of each sum in the same order, so nothing is commuted or re-associated here. The
  two products of the first layer contract an axis of extent one: their sums have the single term `k = 0`.
-/
import proofs.«181316_j41609643164201_1_alg».proof.Proof.Gen.ReferenceIdeal.Read
import proofs.«181316_j41609643164201_1_alg».proof.Proof.RowNet

noncomputable section

open scoped BigOperators

namespace Cert.RefRows

open Cert.ReferenceIdeal Cert.ReferenceIdeal.Read Idealize.ShloMosaic Idealize.ShloMosaic.ValueIdx

/-- An index into a vector is its one coordinate. -/
theorem idx1_eq {m : ℕ} (u : (⟨1, ![m]⟩ : Shape).Idx) (a : Fin m) (h0 : (u 0).val = a.val) : u = ix1 a :=
  funext fun d => Fin.ext (by match d with | ⟨0, _⟩ => exact h0)

/-- An index into a matrix is its row and its column. -/
theorem idx2_eq {m₀ m₁ : ℕ} (u : (⟨2, ![m₀, m₁]⟩ : Shape).Idx) (a : Fin m₀) (b : Fin m₁) (h0 : (u 0).val = a.val)
    (h1 : (u 1).val = b.val) : u = ix2 a b :=
  funext fun d => Fin.ext (by match d with | ⟨0, _⟩ => exact h0 | ⟨1, _⟩ => exact h1)

section Rows

variable (x0 x1 : FVec Ideal S4000000x1 .f32) (x2 x3 : FVec Ideal S1x10 .f32) (x4 : FVec Ideal S10 .f32)
  (x5 : FVec Ideal S10x10 .f32) (x6 : FVec Ideal S10 .f32) (x7 : FVec Ideal S10x10 .f32) (x8 : FVec Ideal S10 .f32)
  (x9 : FVec Ideal S10x10 .f32) (x10 : FVec Ideal S10 .f32) (x11 : FVec Ideal S10x10 .f32) (x12 : FVec Ideal S10 .f32)
  (x13 : FVec Ideal S10x10 .f32) (x14 : FVec Ideal S10 .f32) (x15 : FVec Ideal S10x10 .f32) (x16 : FVec Ideal S10 .f32)
  (x17 : FVec Ideal S1 .f32) (x18 : FVec Ideal S10x1 .f32) (x19 : FVec Ideal S1 .f32)

/-- The first layer at row `n`: the two products have one term each, the row's scalar times the weight. -/
theorem row9 (n : Fin 4000000) (j : Fin 10) :
    val_main_v9 (F := Ideal) x0 x1 x2 x3 x4 x17 (ix2 n j)
      = Cert.RowNet.first (x17 (ix1 0)) (fun j => x2 (ix2 0 j)) (fun j => x3 (ix2 0 j)) (fun j => x4 (ix1 j))
          (x0 (ix2 n 0)) (x1 (ix2 n 0)) j := by
  rw [val_main_v9_apply, val_main_v8_apply, val_main_v7_apply, val_main_v6_apply, val_main_v5_apply, val_main_v2_apply,
    val_main_v0_apply, val_main_v1_apply, val_main_v4_apply, val_main_v3_apply, Fin.sum_univ_one, Fin.sum_univ_one]
  have ea : idx_main_v6 (idx_main_v7 (ix2 n j)) = ix1 0 := idx1_eq _ _ rfl
  have el0 : lidx_main_v0 (ix2 n j) 0 = ix2 n 0 := idx2_eq _ _ _ rfl rfl
  have er0 : ridx_main_v0 (ix2 n j) 0 = ix2 0 j := idx2_eq _ _ _ rfl rfl
  have el1 : lidx_main_v1 (ix2 n j) 0 = ix2 n 0 := idx2_eq _ _ _ rfl rfl
  have er1 : ridx_main_v1 (ix2 n j) 0 = ix2 0 j := idx2_eq _ _ _ rfl rfl
  have eb : idx_main_v3 (idx_main_v4 (ix2 n j)) = ix1 j := idx1_eq _ _ rfl
  rw [ea, el0, er0, el1, er1, eb]
  rfl

/-- The second layer at row `n`: a dense layer of the previous layer's row, with weights `x5` and bias `x6`. -/
theorem row17 (n : Fin 4000000) (j : Fin 10) :
    val_main_v17 (F := Ideal) x0 x1 x2 x3 x4 x5 x6 x17 (ix2 n j)
      = Cert.RowNet.dense (x17 (ix1 0)) (fun h j => x5 (ix2 h j)) (fun j => x6 (ix1 j))
          (fun h => val_main_v9 (F := Ideal) x0 x1 x2 x3 x4 x17 (ix2 n h)) j := by
  rw [val_main_v17_apply, val_main_v16_apply, val_main_v15_apply, val_main_v14_apply, val_main_v13_apply,
    val_main_v10_apply, val_main_v12_apply, val_main_v11_apply]
  have ea : idx_main_v14 (idx_main_v15 (ix2 n j)) = ix1 0 := idx1_eq _ _ rfl
  have el : ∀ k : Fin 10, lidx_main_v10 (ix2 n j) k = ix2 n k := fun k => idx2_eq _ _ _ rfl rfl
  have er : ∀ k : Fin 10, ridx_main_v10 (ix2 n j) k = ix2 k j := fun k => idx2_eq _ _ _ rfl rfl
  have eb : idx_main_v11 (idx_main_v12 (ix2 n j)) = ix1 j := idx1_eq _ _ rfl
  rw [ea, eb, Finset.sum_congr rfl (fun k _ => by rw [el k, er k])]
  rfl

/-- The third layer at row `n`: a dense layer of the previous layer's row, with weights `x7` and bias `x8`. -/
theorem row25 (n : Fin 4000000) (j : Fin 10) :
    val_main_v25 (F := Ideal) x0 x1 x2 x3 x4 x5 x6 x7 x8 x17 (ix2 n j)
      = Cert.RowNet.dense (x17 (ix1 0)) (fun h j => x7 (ix2 h j)) (fun j => x8 (ix1 j))
          (fun h => val_main_v17 (F := Ideal) x0 x1 x2 x3 x4 x5 x6 x17 (ix2 n h)) j := by
  rw [val_main_v25_apply, val_main_v24_apply, val_main_v23_apply, val_main_v22_apply, val_main_v21_apply,
    val_main_v18_apply, val_main_v20_apply, val_main_v19_apply]
  have ea : idx_main_v22 (idx_main_v23 (ix2 n j)) = ix1 0 := idx1_eq _ _ rfl
  have el : ∀ k : Fin 10, lidx_main_v18 (ix2 n j) k = ix2 n k := fun k => idx2_eq _ _ _ rfl rfl
  have er : ∀ k : Fin 10, ridx_main_v18 (ix2 n j) k = ix2 k j := fun k => idx2_eq _ _ _ rfl rfl
  have eb : idx_main_v19 (idx_main_v20 (ix2 n j)) = ix1 j := idx1_eq _ _ rfl
  rw [ea, eb, Finset.sum_congr rfl (fun k _ => by rw [el k, er k])]
  rfl

/-- The fourth layer at row `n`: a dense layer of the previous layer's row, with weights `x9` and bias `x10`. -/
theorem row33 (n : Fin 4000000) (j : Fin 10) :
    val_main_v33 (F := Ideal) x0 x1 x2 x3 x4 x5 x6 x7 x8 x9 x10 x17 (ix2 n j)
      = Cert.RowNet.dense (x17 (ix1 0)) (fun h j => x9 (ix2 h j)) (fun j => x10 (ix1 j))
          (fun h => val_main_v25 (F := Ideal) x0 x1 x2 x3 x4 x5 x6 x7 x8 x17 (ix2 n h)) j := by
  rw [val_main_v33_apply, val_main_v32_apply, val_main_v31_apply, val_main_v30_apply, val_main_v29_apply,
    val_main_v26_apply, val_main_v28_apply, val_main_v27_apply]
  have ea : idx_main_v30 (idx_main_v31 (ix2 n j)) = ix1 0 := idx1_eq _ _ rfl
  have el : ∀ k : Fin 10, lidx_main_v26 (ix2 n j) k = ix2 n k := fun k => idx2_eq _ _ _ rfl rfl
  have er : ∀ k : Fin 10, ridx_main_v26 (ix2 n j) k = ix2 k j := fun k => idx2_eq _ _ _ rfl rfl
  have eb : idx_main_v27 (idx_main_v28 (ix2 n j)) = ix1 j := idx1_eq _ _ rfl
  rw [ea, eb, Finset.sum_congr rfl (fun k _ => by rw [el k, er k])]
  rfl

/-- The fifth layer at row `n`: a dense layer of the previous layer's row, with weights `x11` and bias `x12`. -/
theorem row41 (n : Fin 4000000) (j : Fin 10) :
    val_main_v41 (F := Ideal) x0 x1 x2 x3 x4 x5 x6 x7 x8 x9 x10 x11 x12 x17 (ix2 n j)
      = Cert.RowNet.dense (x17 (ix1 0)) (fun h j => x11 (ix2 h j)) (fun j => x12 (ix1 j))
          (fun h => val_main_v33 (F := Ideal) x0 x1 x2 x3 x4 x5 x6 x7 x8 x9 x10 x17 (ix2 n h)) j := by
  rw [val_main_v41_apply, val_main_v40_apply, val_main_v39_apply, val_main_v38_apply, val_main_v37_apply,
    val_main_v34_apply, val_main_v36_apply, val_main_v35_apply]
  have ea : idx_main_v38 (idx_main_v39 (ix2 n j)) = ix1 0 := idx1_eq _ _ rfl
  have el : ∀ k : Fin 10, lidx_main_v34 (ix2 n j) k = ix2 n k := fun k => idx2_eq _ _ _ rfl rfl
  have er : ∀ k : Fin 10, ridx_main_v34 (ix2 n j) k = ix2 k j := fun k => idx2_eq _ _ _ rfl rfl
  have eb : idx_main_v35 (idx_main_v36 (ix2 n j)) = ix1 j := idx1_eq _ _ rfl
  rw [ea, eb, Finset.sum_congr rfl (fun k _ => by rw [el k, er k])]
  rfl

/-- The sixth layer at row `n`: a dense layer of the previous layer's row, with weights `x13` and bias `x14`. -/
theorem row49 (n : Fin 4000000) (j : Fin 10) :
    val_main_v49 (F := Ideal) x0 x1 x2 x3 x4 x5 x6 x7 x8 x9 x10 x11 x12 x13 x14 x17 (ix2 n j)
      = Cert.RowNet.dense (x17 (ix1 0)) (fun h j => x13 (ix2 h j)) (fun j => x14 (ix1 j))
          (fun h => val_main_v41 (F := Ideal) x0 x1 x2 x3 x4 x5 x6 x7 x8 x9 x10 x11 x12 x17 (ix2 n h)) j := by
  rw [val_main_v49_apply, val_main_v48_apply, val_main_v47_apply, val_main_v46_apply, val_main_v45_apply,
    val_main_v42_apply, val_main_v44_apply, val_main_v43_apply]
  have ea : idx_main_v46 (idx_main_v47 (ix2 n j)) = ix1 0 := idx1_eq _ _ rfl
  have el : ∀ k : Fin 10, lidx_main_v42 (ix2 n j) k = ix2 n k := fun k => idx2_eq _ _ _ rfl rfl
  have er : ∀ k : Fin 10, ridx_main_v42 (ix2 n j) k = ix2 k j := fun k => idx2_eq _ _ _ rfl rfl
  have eb : idx_main_v43 (idx_main_v44 (ix2 n j)) = ix1 j := idx1_eq _ _ rfl
  rw [ea, eb, Finset.sum_congr rfl (fun k _ => by rw [el k, er k])]
  rfl

/-- The seventh layer at row `n`: a dense layer of the previous layer's row, with weights `x15` and bias `x16`. -/
theorem row57 (n : Fin 4000000) (j : Fin 10) :
    val_main_v57 (F := Ideal) x0 x1 x2 x3 x4 x5 x6 x7 x8 x9 x10 x11 x12 x13 x14 x15 x16 x17 (ix2 n j)
      = Cert.RowNet.dense (x17 (ix1 0)) (fun h j => x15 (ix2 h j)) (fun j => x16 (ix1 j))
          (fun h => val_main_v49 (F := Ideal) x0 x1 x2 x3 x4 x5 x6 x7 x8 x9 x10 x11 x12 x13 x14 x17 (ix2 n h)) j := by
  rw [val_main_v57_apply, val_main_v56_apply, val_main_v55_apply, val_main_v54_apply, val_main_v53_apply,
    val_main_v50_apply, val_main_v52_apply, val_main_v51_apply]
  have ea : idx_main_v54 (idx_main_v55 (ix2 n j)) = ix1 0 := idx1_eq _ _ rfl
  have el : ∀ k : Fin 10, lidx_main_v50 (ix2 n j) k = ix2 n k := fun k => idx2_eq _ _ _ rfl rfl
  have er : ∀ k : Fin 10, ridx_main_v50 (ix2 n j) k = ix2 k j := fun k => idx2_eq _ _ _ rfl rfl
  have eb : idx_main_v51 (idx_main_v52 (ix2 n j)) = ix1 j := idx1_eq _ _ rfl
  rw [ea, eb, Finset.sum_congr rfl (fun k _ => by rw [el k, er k])]
  rfl

/-- The result at row `n`: the affine form of the last hidden row, with weights `x18` and bias `x19`. -/
theorem row61 (n : Fin 4000000) :
    val_main_v61 (F := Ideal) x0 x1 x2 x3 x4 x5 x6 x7 x8 x9 x10 x11 x12 x13 x14 x15 x16 x17 x18 x19 (ix2 n 0)
      = Cert.RowNet.last (fun h => x18 (ix2 h 0)) (x19 (ix1 0))
          (fun h => val_main_v57 (F := Ideal) x0 x1 x2 x3 x4 x5 x6 x7 x8 x9 x10 x11 x12 x13 x14 x15 x16 x17 (ix2 n h)) := by
  rw [val_main_v61_apply, val_main_v58_apply, val_main_v60_apply, val_main_v59_apply]
  have el : ∀ k : Fin 10, lidx_main_v58 (ix2 n 0) k = ix2 n k := fun k => idx2_eq _ _ _ rfl rfl
  have er : ∀ k : Fin 10, ridx_main_v58 (ix2 n 0) k = ix2 k 0 := fun k => idx2_eq _ _ _ rfl rfl
  have eb : idx_main_v59 (idx_main_v60 (ix2 n 0)) = ix1 0 := idx1_eq _ _ rfl
  rw [eb, Finset.sum_congr rfl (fun k _ => by rw [el k, er k])]
  rfl

end Rows

/-- THE REFERENCE IS THE ROW NETWORK ON EVERY ROW. Row `n` of the result is the affine form of row `n` of the seventh
hidden layer, which is a dense layer of row `n` of the sixth, and so on down to the first layer, which is a function
of the row's two scalars. -/
theorem ref_column (x0 x1 : FVec Ideal S4000000x1 .f32) (x2 x3 : FVec Ideal S1x10 .f32) (x4 : FVec Ideal S10 .f32) (x5 : FVec Ideal S10x10 .f32) (x6 : FVec Ideal S10 .f32) (x7 : FVec Ideal S10x10 .f32) (x8 : FVec Ideal S10 .f32) (x9 : FVec Ideal S10x10 .f32) (x10 : FVec Ideal S10 .f32) (x11 : FVec Ideal S10x10 .f32) (x12 : FVec Ideal S10 .f32) (x13 : FVec Ideal S10x10 .f32) (x14 : FVec Ideal S10 .f32) (x15 : FVec Ideal S10x10 .f32) (x16 : FVec Ideal S10 .f32) (x17 : FVec Ideal S1 .f32) (x18 : FVec Ideal S10x1 .f32) (x19 : FVec Ideal S1 .f32) :
    val_main_v61 (F := Ideal) x0 x1 x2 x3 x4 x5 x6 x7 x8 x9 x10 x11 x12 x13 x14 x15 x16 x17 x18 x19
      = Cert.RowNet.column (Cert.RowNet.paramsOf x2 x3 x4 x5 x6 x7 x8 x9 x10 x11 x12 x13 x14 x15 x16 x17 x18 x19) x0 x1 := by
  funext i
  obtain ⟨n, z, rfl⟩ : ∃ (n : Fin 4000000) (z : Fin 1), i = ix2 n z := ⟨i 0, i 1, eq_ix2 i⟩
  obtain rfl : z = 0 := Subsingleton.elim _ _
  rw [row61]
  simp only [row57, row49, row41, row33, row25, row17, row9]
  rfl

end Cert.RefRows

end
-- ==== Proof.lean ====
/-
  An eight-layer perceptron with ten hidden units, applied to each of four million rows of two scalar inputs: the kernel
  against its array-at-a-time reference, over the extended reals.

  Both programs compute, for row `n` with inputs `a` and `b`, the value `Cert.RowNet.net` of the parameters at
  `(a, b)`: the first layer `tanh (α · ((a · w₁ + b · w₂) + b₁))`, six layers `tanh (α · ((L · W) + B))`, and the affine
  output layer. The reference works on the whole batch with the hidden vector as a row per input row and the weights on
  the right; the kernel works on blocks of 80000 rows laid along the lanes, with the hidden vector as a column per lane
  and every weight matrix transposed, so that each of its products has the weight on the left. The two differ by the
  order of the two factors in each product inside a finite sum, and by nothing else; multiplication of extended reals
  is commutative, so the results are equal entry by entry whatever the inputs — the finiteness of the inputs is never
  used. `Cert.RefRows.ref_column` reads the reference, `Cert.KernelColumn.run` the kernel's run.

  No operation was rewritten when the kernel was read at the ideal values, so there is nothing to preserve.
-/
import proofs.«181316_j41609643164201_1_alg».proof.Defs
import proofs.«181316_j41609643164201_1_alg».proof.Proof.Gen.Kernel
import proofs.«181316_j41609643164201_1_alg».proof.Proof.Gen.Kernel.Skeleton
import proofs.«181316_j41609643164201_1_alg».proof.Proof.Gen.Kernel.Launch
import proofs.«181316_j41609643164201_1_alg».proof.Proof.Gen.Kernel.Points
import proofs.«181316_j41609643164201_1_alg».proof.Proof.Gen.Kernel.Frame
import proofs.«181316_j41609643164201_1_alg».proof.Proof.Gen.KernelIdeal
import proofs.«181316_j41609643164201_1_alg».proof.Proof.Gen.KernelIdeal.Skeleton
import proofs.«181316_j41609643164201_1_alg».proof.Proof.Gen.KernelIdeal.Launch
import proofs.«181316_j41609643164201_1_alg».proof.Proof.Gen.KernelIdeal.Points
import proofs.«181316_j41609643164201_1_alg».proof.Proof.Gen.KernelIdeal.Frame
import proofs.«181316_j41609643164201_1_alg».proof.Proof.Gen.ReferenceIdeal
import proofs.«181316_j41609643164201_1_alg».proof.Proof.Gen.ReferenceIdeal.Run
import proofs.«181316_j41609643164201_1_alg».proof.Proof.Gen.ReferenceIdeal.Read
import proofs.«181316_j41609643164201_1_alg».proof.Proof.Gen.Pre_finite_inputs
import proofs.«181316_j41609643164201_1_alg».proof.Proof.RowNet
import proofs.«181316_j41609643164201_1_alg».proof.Proof.KernelColumn
import proofs.«181316_j41609643164201_1_alg».proof.Proof.RefRows
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel :=
  fun m ρ _ => Cert.Kernel.Gen.frame m ρ

/-- So does the kernel read at the ideal values. -/
theorem frame_kernelIdeal : Cert.frame_KernelIdeal :=
  fun m ρ _ => Cert.KernelIdeal.Gen.frame m ρ

/-- And the reference: its run with the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- The two runs end with one result column: row `n` holds the row network at the two inputs' row `n`. -/
theorem algebraic : Cert.algebraic_KernelIdeal_ReferenceIdeal := by
  intro m ρ m' ρ' _ hagree
  refine ⟨fun c => Cert.RowNet.column (Cert.RowNet.paramsOf (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), Cert.KernelColumn.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19⟩ := hagree c
  rw [Cert.ReferenceIdeal.Read.val_main_v61_eq, Cert.RefRows.ref_column,
    a0, a1, a2, a3, a4, a5, a6, a7, a8, a9, a10, a11, a12, a13, a14, a15, a16, a17, a18, a19]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
